-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S16384x64 : Shape := ⟨2, ![16384, 64]⟩
abbrev S512x6144 : Shape := ⟨2, ![512, 6144]⟩
abbrev S6144 : Shape := ⟨1, ![6144]⟩
abbrev S1024x4096 : Shape := ⟨2, ![1024, 4096]⟩
abbrev S1024x2048 : Shape := ⟨2, ![1024, 2048]⟩
abbrev S64x3072 : Shape := ⟨2, ![64, 3072]⟩
abbrev S1024x1024 : Shape := ⟨2, ![1024, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384x64 : S_.BroadcastsInDim S16384x64 (![] : Fin 0 → Fin S16384x64.rank)
  reducesTo_S16384x64_S_d0_1 : S16384x64.ReducesTo [0, 1] S_
  bcast_S_S512x6144 : S_.BroadcastsInDim S512x6144 (![] : Fin 0 → Fin S512x6144.rank)
  reducesTo_S512x6144_S_d0_1 : S512x6144.ReducesTo [0, 1] S_
  bcast_S_S6144 : S_.BroadcastsInDim S6144 (![] : Fin 0 → Fin S6144.rank)
  reducesTo_S6144_S_d0 : S6144.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S64x3072 : S_.BroadcastsInDim S64x3072 (![] : Fin 0 → Fin S64x3072.rank)
  reducesTo_S64x3072_S_d0_1 : S64x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x2048 .f32) (main_arg8 : FVec F S64x3072 .f32) (main_arg9 : FVec F S1024x1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S64x3072 .f32 := Host.absf main_arg8
  let main_cst_14 : FVec F S_ .f32 := constant S_ .f32 0x7F800000#32
  let main_v40 : FVec F S64x3072 .f32 := broadcastInDim S64x3072 ![] bcast_S_S64x3072 main_cst_14
  let main_v41 : IVec S64x3072 1 := cmpf .olt main_v39 main_v40
  let main_c_15 : IVec S_ 1 := constantI S_ 1 1#1
  let main_v42 : IVec S_ 1 := (fun x v => Host.reduce IntOp.andi x v reducesTo_S64x3072_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S512x6144 .f32) (main_arg5 : FVec F S6144 .f32) (main_arg6 : FVec F S1024x4096 .f32) (main_arg7 : FVec F S1024x2048 .f32) (main_arg8 : FVec F S64x3072 .f32) (main_arg9 : FVec F S1024x1024 .f32) (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  let main_v19 : FVec F S512x6144 .f32 := Host.absf main_arg4
  let main_cst_6 : FVec F S_ .f32 := constant S_ .f32 0x7F800000#32
  let main_v20 : FVec F S512x6144 .f32 := broadcastInDim S512x6144 ![] bcast_S_S512x6144 main_cst_6
  let main_v21 : IVec S512x6144 1 := cmpf .olt main_v19 main_v20
  let main_c_7 : IVec S_ 1 := constantI S_ 1 1#1
  let main_v22 : IVec S_ 1 := (fun x v => Host.reduce IntOp.andi x v reducesTo_S512x6144_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x1024 .f32) (main_arg2 : FVec F S16384x1024 .f32) (main_arg3 : FVec F S16384x64 .f32) (main_arg4 : FVec F S512x6144 .f32) (main_arg5 : FVec F S6144 .f32) (main_arg6 : FVec F S1024x4096 .f32) (main_arg7 : FVec F S1024x2048 .f32) (main_arg8 : FVec F S64x3072 .f32) (main_arg9 : FVec F S1024x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x64 .f32 := Host.absf main_arg3
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S16384x1024 : Shape := ⟨2, ![16384, 1024]⟩
abbrev S16384x64 : Shape := ⟨2, ![16384, 64]⟩
abbrev S512x6144 : Shape := ⟨2, ![512, 6144]⟩
abbrev S6144 : Shape := ⟨1, ![6144]⟩
abbrev S1024x4096 : Shape := ⟨2, ![1024, 4096]⟩
abbrev S1024x2048 : Shape := ⟨2, ![1024, 2048]⟩
abbrev S64x3072 : Shape := ⟨2, ![64, 3072]⟩
abbrev S1024x1024 : Shape := ⟨2, ![1024, 1024]⟩
abbrev S512x1024 : Shape := ⟨2, ![512, 1024]⟩
abbrev S1024 : Shape := ⟨1, ![1024]⟩
abbrev S512x2048 : Shape := ⟨2, ![512, 2048]⟩
abbrev S2560x2048 : Shape := ⟨2, ![2560, 2048]⟩
abbrev S1536x2048 : Shape := ⟨2, ![1536, 2048]⟩
abbrev S2048 : Shape := ⟨1, ![2048]⟩
abbrev S1x2048 : Shape := ⟨2, ![1, 2048]⟩
abbrev S256x512 : Shape := ⟨2, ![256, 512]⟩
abbrev S256x1024 : Shape := ⟨2, ![256, 1024]⟩
abbrev S256x64 : Shape := ⟨2, ![256, 64]⟩
abbrev S256x2560 : Shape := ⟨2, ![256, 2560]⟩
abbrev S256x1536 : Shape := ⟨2, ![256, 1536]⟩
abbrev S256x2048 : Shape := ⟨2, ![256, 2048]⟩
abbrev S256x3072 : Shape := ⟨2, ![256, 3072]⟩

abbrev nBuf : Space → Nat
  | .hbm => 49
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x64, .f32⟩
  | .hbm, ⟨4, _⟩ => ⟨S512x6144, .f32⟩
  | .hbm, ⟨5, _⟩ => ⟨S6144, .f32⟩
  | .hbm, ⟨6, _⟩ => ⟨S1024x4096, .f32⟩
  | .hbm, ⟨7, _⟩ => ⟨S1024x2048, .f32⟩
  | .hbm, ⟨8, _⟩ => ⟨S64x3072, .f32⟩
  | .hbm, ⟨9, _⟩ => ⟨S1024x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S512x2048, .f32⟩
  | .hbm, ⟨29, _⟩ => ⟨S1024x2048, .f32⟩
  | .hbm, ⟨30, _⟩ => ⟨S1024x2048, .f32⟩
  | .hbm, ⟨31, _⟩ => ⟨S2560x2048, .f32⟩
  | .hbm, ⟨32, _⟩ => ⟨S2560x2048, .bf16⟩
  | .hbm, ⟨33, _⟩ => ⟨S512x2048, .f32⟩
  | .hbm, ⟨34, _⟩ => ⟨S1024x2048, .f32⟩
  | .hbm, ⟨35, _⟩ => ⟨S1536x2048, .f32⟩
  | .hbm, ⟨36, _⟩ => ⟨S1536x2048, .bf16⟩
  | .hbm, ⟨37, _⟩ => ⟨S512x2048, .f32⟩
  | .hbm, ⟨38, _⟩ => ⟨S512x2048, .bf16⟩
  | .hbm, ⟨39, _⟩ => ⟨S64x3072, .bf16⟩
  | .hbm, ⟨40, _⟩ => ⟨S1024x1024, .bf16⟩
  | .hbm, ⟨41, _⟩ => ⟨S2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S2048, .f32⟩
  | .hbm, ⟨46, _⟩ => ⟨S1x2048, .f32⟩
  | .hbm, ⟨47, _⟩ => ⟨S16384x1024, .f32⟩
  | .hbm, ⟨48, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x64, .f32⟩
  | .local _ .vmem, ⟨7, _⟩ => ⟨S256x64, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S2560x2048, .bf16⟩
  | .local _ .vmem, ⟨12, _⟩ => ⟨S1536x2048, .bf16⟩
  | .local _ .vmem, ⟨13, _⟩ => ⟨S512x2048, .bf16⟩
  | .local _ .vmem, ⟨14, _⟩ => ⟨S64x3072, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S512x6144_S512x1024_0_0 : S512x6144.Slices ![0, 0] S512x1024
  slices_S512x6144_S512x1024_0_1024 : S512x6144.Slices ![0, 1024] S512x1024
  slices_S512x6144_S512x1024_0_2048 : S512x6144.Slices ![0, 2048] S512x1024
  slices_S512x6144_S512x1024_0_3072 : S512x6144.Slices ![0, 3072] S512x1024
  slices_S512x6144_S512x1024_0_4096 : S512x6144.Slices ![0, 4096] S512x1024
  slices_S512x6144_S512x1024_0_5120 : S512x6144.Slices ![0, 5120] S512x1024
  slices_S1024x4096_S1024x1024_0_0 : S1024x4096.Slices ![0, 0] S1024x1024
  slices_S1024x4096_S1024x1024_0_1024 : S1024x4096.Slices ![0, 1024] S1024x1024
  slices_S1024x4096_S1024x1024_0_2048 : S1024x4096.Slices ![0, 2048] S1024x1024
  slices_S1024x4096_S1024x1024_0_3072 : S1024x4096.Slices ![0, 3072] S1024x1024
  slices_S1024x2048_S1024x1024_0_0 : S1024x2048.Slices ![0, 0] S1024x1024
  slices_S1024x2048_S1024x1024_0_1024 : S1024x2048.Slices ![0, 1024] S1024x1024
  slices_S6144_S1024_0 : S6144.Slices ![0] S1024
  slices_S6144_S1024_1024 : S6144.Slices ![1024] S1024
  slices_S6144_S1024_2048 : S6144.Slices ![2048] S1024
  slices_S6144_S1024_3072 : S6144.Slices ![3072] S1024
  slices_S6144_S1024_4096 : S6144.Slices ![4096] S1024
  slices_S6144_S1024_5120 : S6144.Slices ![5120] S1024
  concatenates_S512x1024_S512x1024_S512x2048_d1 : Shape.Concatenates [S512x1024, S512x1024] S512x2048 1
  concatenates_S1024x1024_S1024x1024_S1024x2048_d1 : Shape.Concatenates [S1024x1024, S1024x1024] S1024x2048 1
  concatenates_S512x2048_S1024x2048_S1024x2048_S2560x2048_d0 : Shape.Concatenates [S512x2048, S1024x2048, S1024x2048] S2560x2048 0
  bitsLt_bf16_f32 : FTy.bits .bf16 < FTy.bits .f32
  concatenates_S512x2048_S1024x2048_S1536x2048_d0 : Shape.Concatenates [S512x2048, S1024x2048] S1536x2048 0
  concatenates_S1024_S1024_S2048_d0 : Shape.Concatenates [S1024, S1024] S2048 0
  shapeCasts_S2048_S1x2048 : S2048.ShapeCasts S1x2048
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S256x64_S256x64_0_0 : ∀ a, (![0, 0] : Fin 2 → Nat) a + S256x64.size a ≤ S256x64.size a
  h_S256x64 : 0 < S256x64.numel
  concatenates_S256x512_S256x1024_S256x1024_S256x2560_d1 : Shape.Concatenates [S256x512, S256x1024, S256x1024] S256x2560 1
  concatenates_S256x512_S256x1024_S256x1536_d1 : Shape.Concatenates [S256x512, S256x1024] S256x1536 1
  inb_S2560x2048_S2560x2048_0_0 : ∀ a, (![0, 0] : Fin 2 → Nat) a + S2560x2048.size a ≤ S2560x2048.size a
  h_S2560x2048 : 0 < S2560x2048.numel
  shapeCasts_S2560x2048_S2560x2048 : S2560x2048.ShapeCasts S2560x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S256x2560_S2560x2048_S256x2048_1_0_0_1_n_n_wf : DotDims.WF S256x2560 S2560x2048 S256x2048 [1] [0] [0] [1] [] []
  dot_S256x1536_S1536x2048_S256x2048_1_0_0_1_n_n_wf : DotDims.WF S256x1536 S1536x2048 S256x2048 [1] [0] [0] [1] [] []
  dot_S256x512_S512x2048_S256x2048_1_0_0_1_n_n_wf : DotDims.WF S256x512 S512x2048 S256x2048 [1] [0] [0] [1] [] []
  dot_S256x64_S64x3072_S256x3072_1_0_0_1_n_n_wf : DotDims.WF S256x64 S64x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2560x2048.size a ≤ S2560x2048.size a
  hwx0_7 : ∀ i : grid0.Coords, EltTy.bits .bf16 = 32 ∨ (Rect.block (s := S2560x2048) S2560x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536x2048.size a ≤ S1536x2048.size a
  hwx0_8 : ∀ i : grid0.Coords, EltTy.bits .bf16 = 32 ∨ (Rect.block (s := S1536x2048) S1536x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x3072.size a ≤ S64x3072.size a
  hwx0_10 : ∀ i : grid0.Coords, EltTy.bits .bf16 = 32 ∨ (Rect.block (s := S64x3072) S64x3072.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .f32 = 32 ∨ (Rect.block (s := S16384x1024) S256x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)

variable [Facts₀]

def dot_S256x2560_S2560x2048_S256x2048_1_0_0_1_n_n : DotDims S256x2560 S2560x2048 S256x2048 where
  lhsContracting := [1]
  rhsContracting := [0]
  lhsNonContracting := [0]
  rhsNonContracting := [1]
  lhsBatch := []
  rhsBatch := []
  wf := dot_S256x2560_S2560x2048_S256x2048_1_0_0_1_n_n_wf
def dot_S256x1536_S1536x2048_S256x2048_1_0_0_1_n_n : DotDims S256x1536 S1536x2048 S256x2048 where
  lhsContracting := [1]
  rhsContracting := [0]
  lhsNonContracting := [0]
  rhsNonContracting := [1]
  lhsBatch := []
  rhsBatch := []
  wf := dot_S256x1536_S1536x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x64_S64x3072_S256x3072_1_0_0_1_n_n : DotDims S256x64 S64x3072 S256x3072 where
  lhsContracting := [1]
  rhsContracting := [0]
  lhsNonContracting := [0]
  rhsNonContracting := [1]
  lhsBatch := []
  rhsBatch := []
  wf := dot_S256x64_S64x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S2560x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1536x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S64x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37_0) S256x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v37_1) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S16384x64 : Shape := ⟨2, ![16384, 64]⟩
abbrev S512x6144 : Shape := ⟨2, ![512, 6144]⟩
abbrev S6144 : Shape := ⟨1, ![6144]⟩
abbrev S1024x4096 : Shape := ⟨2, ![1024, 4096]⟩
abbrev S1024x2048 : Shape := ⟨2, ![1024, 2048]⟩
abbrev S64x3072 : Shape := ⟨2, ![64, 3072]⟩
abbrev S1024x1024 : Shape := ⟨2, ![1024, 1024]⟩
abbrev S16384x6144 : Shape := ⟨2, ![16384, 6144]⟩
abbrev S1x6144 : Shape := ⟨2, ![1, 6144]⟩
abbrev S16384x4096 : Shape := ⟨2, ![16384, 4096]⟩
abbrev S16384x2048 : Shape := ⟨2, ![16384, 2048]⟩
abbrev S16384x3072 : Shape := ⟨2, ![16384, 3072]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x64, .f32⟩
  | .hbm, ⟨4, _⟩ => ⟨S512x6144, .f32⟩
  | .hbm, ⟨5, _⟩ => ⟨S6144, .f32⟩
  | .hbm, ⟨6, _⟩ => ⟨S1024x4096, .f32⟩
  | .hbm, ⟨7, _⟩ => ⟨S1024x2048, .f32⟩
  | .hbm, ⟨8, _⟩ => ⟨S64x3072, .f32⟩
  | .hbm, ⟨9, _⟩ => ⟨S1024x1024, .f32⟩
  | .hbm, ⟨10, _⟩ => ⟨S16384x6144, .f32⟩
  | .hbm, ⟨11, _⟩ => ⟨S1x6144, .f32⟩
  | .hbm, ⟨12, _⟩ => ⟨S16384x6144, .f32⟩
  | .hbm, ⟨13, _⟩ => ⟨S16384x6144, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  slices_S16384x6144_S16384x1024_0_0 : S16384x6144.Slices ![0, 0] S16384x1024
  slices_S16384x6144_S16384x1024_0_1024 : S16384x6144.Slices ![0, 1024] S16384x1024
  slices_S16384x6144_S16384x1024_0_2048 : S16384x6144.Slices ![0, 2048] S16384x1024
  slices_S16384x6144_S16384x1024_0_3072 : S16384x6144.Slices ![0, 3072] S16384x1024
  slices_S16384x6144_S16384x1024_0_4096 : S16384x6144.Slices ![0, 4096] S16384x1024
  slices_S16384x6144_S16384x1024_0_5120 : S16384x6144.Slices ![0, 5120] S16384x1024
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  slices_S16384x2048_S16384x1024_0_0 : S16384x2048.Slices ![0, 0] S16384x1024
  slices_S16384x2048_S16384x1024_0_1024 : S16384x2048.Slices ![0, 1024] S16384x1024
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x512_S512x6144_S16384x6144_1_0_0_1_n_n_wf : DotDims.WF S16384x512 S512x6144 S16384x6144 [1] [0] [0] [1] [] []
  dot_S16384x1024_S1024x4096_S16384x4096_1_0_0_1_n_n_wf : DotDims.WF S16384x1024 S1024x4096 S16384x4096 [1] [0] [0] [1] [] []
  dot_S16384x1024_S1024x2048_S16384x2048_1_0_0_1_n_n_wf : DotDims.WF S16384x1024 S1024x2048 S16384x2048 [1] [0] [0] [1] [] []
  dot_S16384x64_S64x3072_S16384x3072_1_0_0_1_n_n_wf : DotDims.WF S16384x64 S64x3072 S16384x3072 [1] [0] [0] [1] [] []
  dot_S16384x1024_S1024x1024_S16384x1024_1_0_0_1_n_n_wf : DotDims.WF S16384x1024 S1024x1024 S16384x1024 [1] [0] [0] [1] [] []

variable [Facts₀]

def dot_S16384x512_S512x6144_S16384x6144_1_0_0_1_n_n : DotDims S16384x512 S512x6144 S16384x6144 where
  lhsContracting := [1]
  rhsContracting := [0]
  lhsNonContracting := [0]
  rhsNonContracting := [1]
  lhsBatch := []
  rhsBatch := []
  wf := dot_S16384x512_S512x6144_S16384x6144_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x64_S64x3072_S16384x3072_1_0_0_1_n_n : DotDims S16384x64 S64x3072 S16384x3072 where
  lhsContracting := [1]
  rhsContracting := [0]
  lhsNonContracting := [0]
  rhsNonContracting := [1]
  lhsBatch := []
  rhsBatch := []
  wf := dot_S16384x64_S64x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.EntryBits.lean ====
/-
  The host side of `Kernel` before its one launch.

  @main first re-lays the weights: it slices the fused projections into their bands, stacks and pairs the
  bands into the matrices the launch contracts against, narrows them, and pairs the bias bands. None of
  these operations writes an argument array, so the launch finds every argument as it was at the start;
  the re-laid operands are the host operations' values of the arguments (`V`).
-/
import proofs.«423095_j91027536871502_3_alg».proof.Proof.Gen.Kernel.Launch
import proofs.«423095_j91027536871502_3_alg».proof.Proof.Gen.Kernel.Points
import Idealize.ShloMosaic.Lib.Pipeline.FrameBody
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is entered: the launch contents after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (hb : (hostOps0 : List (HloOp τ sig (Elt F))).Forall fun op => (Proc.devRef .tc b : DevRef τ sig) ∉ op.writes) :
    V m c b = m ((c : Thread nD τ).loc b) :=
  StableHlo.after_of_forall_not_mem (b := Proc.devRef .tc b) _ _ (List.forall_iff_forall_mem.mp hb)

/-- No host operation writes argument 0. -/
theorem V_main_arg0 (c : Dev nD) : V m c main_arg0 = m ((c : Thread nD τ).loc main_arg0) :=
  V_of_not_written m c main_arg0 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 1. -/
theorem V_main_arg1 (c : Dev nD) : V m c main_arg1 = m ((c : Thread nD τ).loc main_arg1) :=
  V_of_not_written m c main_arg1 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 2. -/
theorem V_main_arg2 (c : Dev nD) : V m c main_arg2 = m ((c : Thread nD τ).loc main_arg2) :=
  V_of_not_written m c main_arg2 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 3. -/
theorem V_main_arg3 (c : Dev nD) : V m c main_arg3 = m ((c : Thread nD τ).loc main_arg3) :=
  V_of_not_written m c main_arg3 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 4. -/
theorem V_main_arg4 (c : Dev nD) : V m c main_arg4 = m ((c : Thread nD τ).loc main_arg4) :=
  V_of_not_written m c main_arg4 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 5. -/
theorem V_main_arg5 (c : Dev nD) : V m c main_arg5 = m ((c : Thread nD τ).loc main_arg5) :=
  V_of_not_written m c main_arg5 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 6. -/
theorem V_main_arg6 (c : Dev nD) : V m c main_arg6 = m ((c : Thread nD τ).loc main_arg6) :=
  V_of_not_written m c main_arg6 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 7. -/
theorem V_main_arg7 (c : Dev nD) : V m c main_arg7 = m ((c : Thread nD τ).loc main_arg7) :=
  V_of_not_written m c main_arg7 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 8. -/
theorem V_main_arg8 (c : Dev nD) : V m c main_arg8 = m ((c : Thread nD τ).loc main_arg8) :=
  V_of_not_written m c main_arg8 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 9. -/
theorem V_main_arg9 (c : Dev nD) : V m c main_arg9 = m ((c : Thread nD τ).loc main_arg9) :=
  V_of_not_written m c main_arg9 (by
    simp only [hostOps0, List.Forall, StableHlo.unary_writes, StableHlo.binary_writes, StableHlo.nary_writes, StableHlo.reshape_writes, Finset.mem_singleton]
    repeat' apply And.intro
    all_goals exact StableHlo.devRef_ne_of_ne (by decide))

end Cert.Kernel.Hand

end
-- ==== Proof.LaunchBits.lean ====
/-
  The launch of `Kernel`: every grid point runs the body on 256 batch rows and leaves, in the two
  output blocks, the body's two stored values of the twelve input blocks; the launch then terminates with
  each output array made of those blocks and every other buffer as the launch found it.

  A grid point's body loads its twelve input blocks whole, computes, and stores each output block whole
  (reading the output blocks first, values it never uses). So what an output block holds after the body
  is one whole-block piece: the stored value as a function of the loaded blocks.
-/
import proofs.«423095_j91027536871502_3_alg».proof.Proof.EntryBits
import proofs.«423095_j91027536871502_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read and written whole -/

abbrev r_S256x512 : Rect S256x512 := Rect.unit (s := S256x512) ![0, 0] S256x512.size inb_S256x512_S256x512_0_0
abbrev r_S256x1024 : Rect S256x1024 := Rect.unit (s := S256x1024) ![0, 0] S256x1024.size inb_S256x1024_S256x1024_0_0
abbrev r_S256x64 : Rect S256x64 := Rect.unit (s := S256x64) ![0, 0] S256x64.size inb_S256x64_S256x64_0_0
abbrev r_S1x2048 : Rect S1x2048 := Rect.unit (s := S1x2048) ![0, 0] S1x2048.size inb_S1x2048_S1x2048_0_0
abbrev r_S2560x2048 : Rect S2560x2048 := Rect.unit (s := S2560x2048) ![0, 0] S2560x2048.size inb_S2560x2048_S2560x2048_0_0
abbrev r_S1536x2048 : Rect S1536x2048 := Rect.unit (s := S1536x2048) ![0, 0] S1536x2048.size inb_S1536x2048_S1536x2048_0_0
abbrev r_S512x2048 : Rect S512x2048 := Rect.unit (s := S512x2048) ![0, 0] S512x2048.size inb_S512x2048_S512x2048_0_0
abbrev r_S64x3072 : Rect S64x3072 := Rect.unit (s := S64x3072) ![0, 0] S64x3072.size inb_S64x3072_S64x3072_0_0
abbrev r_S1024x1024 : Rect S1024x1024 := Rect.unit (s := S1024x1024) ![0, 0] S1024x1024.size inb_S1024x1024_S1024x1024_0_0

/-! ## What the body leaves in each output block -/

/-- The next hidden state's block: the one whole-block store, its value a function of the loaded blocks. -/
def out_12 (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) : Vec F S256x1024 .f32 :=
  View.canon [⟨r_S256x1024, k0_pay5 (View.ld x2 r_S256x1024) (k0_pay8 (View.ld x3 r_S256x64)) (k0_pay10 (View.ld x0 r_S256x512) (View.ld x1 r_S256x1024) (View.ld x2 r_S256x1024) (View.ld x7 r_S2560x2048) (View.ld x4 r_S1x2048)) (k0_pay11 (View.ld x0 r_S256x512) (View.ld x1 r_S256x1024) (View.ld x2 r_S256x1024) (View.ld x7 r_S2560x2048) (View.ld x4 r_S1x2048)) (k0_pay13 (View.ld x0 r_S256x512) (View.ld x1 r_S256x1024) (View.ld x8 r_S1536x2048) (View.ld x5 r_S1x2048)) (k0_pay14 (View.ld x0 r_S256x512) (View.ld x1 r_S256x1024) (View.ld x8 r_S1536x2048) (View.ld x5 r_S1x2048)) (k0_pay15 (View.ld x0 r_S256x512) (View.ld x9 r_S512x2048)) (k0_pay16 (View.ld x6 r_S1x2048)) (View.ld x10 r_S64x3072) (View.ld x11 r_S1024x1024)⟩]

/-- The next cell state's block. -/
def out_13 (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) : Vec F S256x1024 .f32 :=
  View.canon [⟨r_S256x1024, k0_pay4 (View.ld x2 r_S256x1024) (k0_pay8 (View.ld x3 r_S256x64)) (k0_pay10 (View.ld x0 r_S256x512) (View.ld x1 r_S256x1024) (View.ld x2 r_S256x1024) (View.ld x7 r_S2560x2048) (View.ld x4 r_S1x2048)) (k0_pay11 (View.ld x0 r_S256x512) (View.ld x1 r_S256x1024) (View.ld x2 r_S256x1024) (View.ld x7 r_S2560x2048) (View.ld x4 r_S1x2048)) (k0_pay13 (View.ld x0 r_S256x512) (View.ld x1 r_S256x1024) (View.ld x8 r_S1536x2048) (View.ld x5 r_S1x2048)) (k0_pay15 (View.ld x0 r_S256x512) (View.ld x9 r_S512x2048)) (k0_pay16 (View.ld x6 r_S1x2048)) (View.ld x10 r_S64x3072)⟩]

/-- A whole-block store covers the block. -/
theorem cover_out (p0 : Vec F S256x1024 .f32) (y : S256x1024.Idx) :
    ∃ pc ∈ ([⟨r_S256x1024, p0⟩] : List (View.Piece (Elt F) S256x1024 .f32)), y ∈ pc.1.set :=
  View.cover_of_tiled [⟨r_S256x1024, p0⟩] S256x1024.size (by rfl) y

/-! ## The body's triple -/

set_option maxHeartbeats 4000000 in
/-- The body on whole staging memrefs, the inputs' at contents `xW` and the outputs' at anything, runs to a
    state with the inputs' as they were and each output's at its stored value of the inputs'. -/
theorem sound_kernel (c : Dev nD) (E : Set ℕ) (i : grid0.Coords) (arg0 : Memref sig .tc .vmem S256x512 .f32) (harg0 : arg0.IsWhole) (arg1 : Memref sig .tc .vmem S256x1024 .f32) (harg1 : arg1.IsWhole) (arg2 : Memref sig .tc .vmem S256x1024 .f32) (harg2 : arg2.IsWhole) (arg3 : Memref sig .tc .vmem S256x64 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2560x2048 .bf16) (harg7 : arg7.IsWhole) (arg8 : Memref sig .tc .vmem S1536x2048 .bf16) (harg8 : arg8.IsWhole) (arg9 : Memref sig .tc .vmem S512x2048 .bf16) (harg9 : arg9.IsWhole) (arg10 : Memref sig .tc .vmem S64x3072 .bf16) (harg10 : arg10.IsWhole) (arg11 : Memref sig .tc .vmem S1024x1024 .bf16) (harg11 : arg11.IsWhole) (arg12 : Memref sig .tc .vmem S256x1024 .f32) (harg12 : arg12.IsWhole) (arg13 : Memref sig .tc .vmem S256x1024 .f32) (harg13 : arg13.IsWhole)
    (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out_12 x0 x1 x2 x3 x4 x5 x6 x7 x8 x9 x10 x11) ∗ owns (c : Thread nD τ) arg13 fullShare (out_13 x0 x1 x2 x3 x4 x5 x6 x7 x8 x9 x10 x11)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover_out _)
  iexists _; isplitr
  swap; · iexact H13
  ipureintro
  exact View.read_writes_eq_canon _ _ _ (cover_out _)

/-! ## The proof data of the launch -/

/-- On core `c`: the arrays as the launch finds them; after the body at point `t` each input buffer still at
    its block and each output buffer at its stored value of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = out_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, each array of the
    launch at what its blocks make of it and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Kernel.Hand

end
-- ==== Proof.EntryIdeal.lean ====
/-
  The host side of `KernelIdeal` before its one launch.

  @main first re-lays the weights: it slices the fused projections into their bands, stacks and pairs the
  bands into the matrices the launch contracts against, narrows them, and pairs the bias bands. None of
  these operations writes an argument array, so the launch finds every argument as it was at the start;
  the re-laid operands are the host operations' values of the arguments (`V`).
-/
import proofs.«423095_j91027536871502_3_alg».proof.Proof.Gen.KernelIdeal.Launch
import proofs.«423095_j91027536871502_3_alg».proof.Proof.Gen.KernelIdeal.Points
import Idealize.ShloMosaic.Lib.Pipeline.FrameBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is entered: the launch contents after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (hb : (hostOps0 : List (HloOp τ sig (Elt F))).Forall fun op => (Proc.devRef .tc b : DevRef τ sig) ∉ op.writes) :
    V m c b = m ((c : Thread nD τ).loc b) :=
  StableHlo.after_of_forall_not_mem (b := Proc.devRef .tc b) _ _ (List.forall_iff_forall_mem.mp hb)

/-- No host operation writes argument 0. -/
theorem V_main_arg0 (c : Dev nD) : V m c main_arg0 = m ((c : Thread nD τ).loc main_arg0) :=
  V_of_not_written m c main_arg0 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 1. -/
theorem V_main_arg1 (c : Dev nD) : V m c main_arg1 = m ((c : Thread nD τ).loc main_arg1) :=
  V_of_not_written m c main_arg1 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 2. -/
theorem V_main_arg2 (c : Dev nD) : V m c main_arg2 = m ((c : Thread nD τ).loc main_arg2) :=
  V_of_not_written m c main_arg2 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 3. -/
theorem V_main_arg3 (c : Dev nD) : V m c main_arg3 = m ((c : Thread nD τ).loc main_arg3) :=
  V_of_not_written m c main_arg3 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 4. -/
theorem V_main_arg4 (c : Dev nD) : V m c main_arg4 = m ((c : Thread nD τ).loc main_arg4) :=
  V_of_not_written m c main_arg4 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 5. -/
theorem V_main_arg5 (c : Dev nD) : V m c main_arg5 = m ((c : Thread nD τ).loc main_arg5) :=
  V_of_not_written m c main_arg5 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 6. -/
theorem V_main_arg6 (c : Dev nD) : V m c main_arg6 = m ((c : Thread nD τ).loc main_arg6) :=
  V_of_not_written m c main_arg6 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 7. -/
theorem V_main_arg7 (c : Dev nD) : V m c main_arg7 = m ((c : Thread nD τ).loc main_arg7) :=
  V_of_not_written m c main_arg7 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 8. -/
theorem V_main_arg8 (c : Dev nD) : V m c main_arg8 = m ((c : Thread nD τ).loc main_arg8) :=
  V_of_not_written m c main_arg8 (by
    simp only [hostOps0, List.Forall, StableHlo.unary_writes, StableHlo.binary_writes, StableHlo.nary_writes, StableHlo.reshape_writes, Finset.mem_singleton]
    repeat' apply And.intro
    all_goals exact StableHlo.devRef_ne_of_ne (by decide))
/-- No host operation writes argument 9. -/
theorem V_main_arg9 (c : Dev nD) : V m c main_arg9 = m ((c : Thread nD τ).loc main_arg9) :=
  V_of_not_written m c main_arg9 (by
    simp only [hostOps0, List.Forall, StableHlo.unary_writes, StableHlo.binary_writes, StableHlo.nary_writes, StableHlo.reshape_writes, Finset.mem_singleton]
    repeat' apply And.intro
    all_goals exact StableHlo.devRef_ne_of_ne (by decide))

end Cert.KernelIdeal.Hand

end
-- ==== Proof.LaunchIdeal.lean ====
/-
  The launch of `KernelIdeal`: every grid point runs the body on 256 batch rows and leaves, in the two
  output blocks, the body's two stored values of the twelve input blocks; the launch then terminates with
  each output array made of those blocks and every other buffer as the launch found it.

  A grid point's body loads its twelve input blocks whole, computes, and stores each output block whole
  (reading the output blocks first, values it never uses). So what an output block holds after the body
  is one whole-block piece: the stored value as a function of the loaded blocks.
-/
import proofs.«423095_j91027536871502_3_alg».proof.Proof.EntryIdeal
import proofs.«423095_j91027536871502_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read and written whole -/

abbrev r_S256x512 : Rect S256x512 := Rect.unit (s := S256x512) ![0, 0] S256x512.size inb_S256x512_S256x512_0_0
abbrev r_S256x1024 : Rect S256x1024 := Rect.unit (s := S256x1024) ![0, 0] S256x1024.size inb_S256x1024_S256x1024_0_0
abbrev r_S256x64 : Rect S256x64 := Rect.unit (s := S256x64) ![0, 0] S256x64.size inb_S256x64_S256x64_0_0
abbrev r_S1x2048 : Rect S1x2048 := Rect.unit (s := S1x2048) ![0, 0] S1x2048.size inb_S1x2048_S1x2048_0_0
abbrev r_S2560x2048 : Rect S2560x2048 := Rect.unit (s := S2560x2048) ![0, 0] S2560x2048.size inb_S2560x2048_S2560x2048_0_0
abbrev r_S1536x2048 : Rect S1536x2048 := Rect.unit (s := S1536x2048) ![0, 0] S1536x2048.size inb_S1536x2048_S1536x2048_0_0
abbrev r_S512x2048 : Rect S512x2048 := Rect.unit (s := S512x2048) ![0, 0] S512x2048.size inb_S512x2048_S512x2048_0_0
abbrev r_S64x3072 : Rect S64x3072 := Rect.unit (s := S64x3072) ![0, 0] S64x3072.size inb_S64x3072_S64x3072_0_0
abbrev r_S1024x1024 : Rect S1024x1024 := Rect.unit (s := S1024x1024) ![0, 0] S1024x1024.size inb_S1024x1024_S1024x1024_0_0

/-! ## What the body leaves in each output block -/

/-- The next hidden state's block: the one whole-block store, its value a function of the loaded blocks. -/
def out_12 (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) : Vec F S256x1024 .f32 :=
  View.canon [⟨r_S256x1024, k0_pay5 (View.ld x2 r_S256x1024) (k0_pay8 (View.ld x3 r_S256x64)) (k0_pay10 (View.ld x0 r_S256x512) (View.ld x1 r_S256x1024) (View.ld x2 r_S256x1024) (View.ld x7 r_S2560x2048) (View.ld x4 r_S1x2048)) (k0_pay11 (View.ld x0 r_S256x512) (View.ld x1 r_S256x1024) (View.ld x2 r_S256x1024) (View.ld x7 r_S2560x2048) (View.ld x4 r_S1x2048)) (k0_pay13 (View.ld x0 r_S256x512) (View.ld x1 r_S256x1024) (View.ld x8 r_S1536x2048) (View.ld x5 r_S1x2048)) (k0_pay14 (View.ld x0 r_S256x512) (View.ld x1 r_S256x1024) (View.ld x8 r_S1536x2048) (View.ld x5 r_S1x2048)) (k0_pay15 (View.ld x0 r_S256x512) (View.ld x9 r_S512x2048)) (k0_pay16 (View.ld x6 r_S1x2048)) (View.ld x10 r_S64x3072) (View.ld x11 r_S1024x1024)⟩]

/-- The next cell state's block. -/
def out_13 (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) : Vec F S256x1024 .f32 :=
  View.canon [⟨r_S256x1024, k0_pay4 (View.ld x2 r_S256x1024) (k0_pay8 (View.ld x3 r_S256x64)) (k0_pay10 (View.ld x0 r_S256x512) (View.ld x1 r_S256x1024) (View.ld x2 r_S256x1024) (View.ld x7 r_S2560x2048) (View.ld x4 r_S1x2048)) (k0_pay11 (View.ld x0 r_S256x512) (View.ld x1 r_S256x1024) (View.ld x2 r_S256x1024) (View.ld x7 r_S2560x2048) (View.ld x4 r_S1x2048)) (k0_pay13 (View.ld x0 r_S256x512) (View.ld x1 r_S256x1024) (View.ld x8 r_S1536x2048) (View.ld x5 r_S1x2048)) (k0_pay15 (View.ld x0 r_S256x512) (View.ld x9 r_S512x2048)) (k0_pay16 (View.ld x6 r_S1x2048)) (View.ld x10 r_S64x3072)⟩]

/-- A whole-block store covers the block. -/
theorem cover_out (p0 : Vec F S256x1024 .f32) (y : S256x1024.Idx) :
    ∃ pc ∈ ([⟨r_S256x1024, p0⟩] : List (View.Piece (Elt F) S256x1024 .f32)), y ∈ pc.1.set :=
  View.cover_of_tiled [⟨r_S256x1024, p0⟩] S256x1024.size (by rfl) y

/-! ## The body's triple -/

set_option maxHeartbeats 4000000 in
/-- The body on whole staging memrefs, the inputs' at contents `xW` and the outputs' at anything, runs to a
    state with the inputs' as they were and each output's at its stored value of the inputs'. -/
theorem sound_kernel (c : Dev nD) (E : Set ℕ) (i : grid0.Coords) (arg0 : Memref sig .tc .vmem S256x512 .f32) (harg0 : arg0.IsWhole) (arg1 : Memref sig .tc .vmem S256x1024 .f32) (harg1 : arg1.IsWhole) (arg2 : Memref sig .tc .vmem S256x1024 .f32) (harg2 : arg2.IsWhole) (arg3 : Memref sig .tc .vmem S256x64 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2560x2048 .bf16) (harg7 : arg7.IsWhole) (arg8 : Memref sig .tc .vmem S1536x2048 .bf16) (harg8 : arg8.IsWhole) (arg9 : Memref sig .tc .vmem S512x2048 .bf16) (harg9 : arg9.IsWhole) (arg10 : Memref sig .tc .vmem S64x3072 .bf16) (harg10 : arg10.IsWhole) (arg11 : Memref sig .tc .vmem S1024x1024 .bf16) (harg11 : arg11.IsWhole) (arg12 : Memref sig .tc .vmem S256x1024 .f32) (harg12 : arg12.IsWhole) (arg13 : Memref sig .tc .vmem S256x1024 .f32) (harg13 : arg13.IsWhole)
    (x0 : Vec F S256x512 .f32) (x1 : Vec F S256x1024 .f32) (x2 : Vec F S256x1024 .f32) (x3 : Vec F S256x64 .f32) (x4 : Vec F S1x2048 .f32) (x5 : Vec F S1x2048 .f32) (x6 : Vec F S1x2048 .f32) (x7 : Vec F S2560x2048 .bf16) (x8 : Vec F S1536x2048 .bf16) (x9 : Vec F S512x2048 .bf16) (x10 : Vec F S64x3072 .bf16) (x11 : Vec F S1024x1024 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out_12 x0 x1 x2 x3 x4 x5 x6 x7 x8 x9 x10 x11) ∗ owns (c : Thread nD τ) arg13 fullShare (out_13 x0 x1 x2 x3 x4 x5 x6 x7 x8 x9 x10 x11)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover_out _)
  iexists _; isplitr
  swap; · iexact H13
  ipureintro
  exact View.read_writes_eq_canon _ _ _ (cover_out _)

/-! ## The proof data of the launch -/

/-- On core `c`: the arrays as the launch finds them; after the body at point `t` each input buffer still at
    its block and each output buffer at its stored value of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = out_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, each array of the
    launch at what its blocks make of it and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.KernelIdeal.Hand

end
-- ==== Proof.Cell.lean ====
/-
  The time-gated LSTM cell, as one function of a batch row.

  One row of the batch is an input `x : Fin 512 → EReal`, a hidden state `h`, a cell state `c` (both
  `Fin 1024 → EReal`) and a time embedding `d : Fin 64 → EReal`. The weights are the fused projections
  `Wx` (six bands of 1024 columns: input, forget, time 1, time 2, candidate, output) with its bias `bx`,
  `Wh` (four bands: input, forget, candidate, output), `Wc` (two bands: input, forget), `Wt`
  (three bands: time 1, time 2, output) and the square `Woc` applied to the intermediate cell state.
  Everything is over the extended reals: sums are `Finset` sums, the sigmoid is `Ideal.logistic`.
-/
import Idealize.ShloMosaic.PureOps.Ideal
import Idealize.ShloMosaic.Lib.ValueIdx

noncomputable section

namespace Cert.TimeLstm

open Idealize.ShloMosaic

/-- Column `j` of band `o` among six bands of 1024 columns. -/
def col6 (o : Fin 6) (j : Fin 1024) : Fin 6144 := ⟨1024 * o.val + j.val, by omega⟩
/-- Column `j` of band `o` among four bands of 1024 columns. -/
def col4 (o : Fin 4) (j : Fin 1024) : Fin 4096 := ⟨1024 * o.val + j.val, by omega⟩
/-- Column `j` of band `o` among three bands of 1024 columns. -/
def col3 (o : Fin 3) (j : Fin 1024) : Fin 3072 := ⟨1024 * o.val + j.val, by omega⟩
/-- Column `j` of band `o` among two bands of 1024 columns. -/
def col2 (o : Fin 2) (j : Fin 1024) : Fin 2048 := ⟨1024 * o.val + j.val, by omega⟩

/-- The weights of the cell. -/
structure Weights where
  Wx : Fin 512 → Fin 6144 → EReal
  bx : Fin 6144 → EReal
  Wh : Fin 1024 → Fin 4096 → EReal
  Wc : Fin 1024 → Fin 2048 → EReal
  Wt : Fin 64 → Fin 3072 → EReal
  Woc : Fin 1024 → Fin 1024 → EReal

/-- One batch row. -/
structure Row where
  x : Fin 512 → EReal
  h : Fin 1024 → EReal
  c : Fin 1024 → EReal
  d : Fin 64 → EReal

variable (W : Weights) (r : Row)

/-- Band `o` of `x · Wx + bx`. -/
def px (o : Fin 6) (j : Fin 1024) : EReal := (∑ k, r.x k * W.Wx k (col6 o j)) + W.bx (col6 o j)
/-- Band `o` of `h · Wh`. -/
def ph (o : Fin 4) (j : Fin 1024) : EReal := ∑ k, r.h k * W.Wh k (col4 o j)
/-- Band `o` of `c · Wc`. -/
def pc (o : Fin 2) (j : Fin 1024) : EReal := ∑ k, r.c k * W.Wc k (col2 o j)
/-- Band `o` of `d · Wt`. -/
def pt (o : Fin 3) (j : Fin 1024) : EReal := ∑ k, r.d k * W.Wt k (col3 o j)

/-- The input gate. -/
def gateI (j : Fin 1024) : EReal := Ideal.logistic ((px W r 0 j + ph W r 0 j) + pc W r 0 j)
/-- The forget gate. -/
def gateF (j : Fin 1024) : EReal := Ideal.logistic ((px W r 1 j + ph W r 1 j) + pc W r 1 j)
/-- The first time gate: a sigmoid of the projection plus a sigmoid of the time projection. -/
def time1 (j : Fin 1024) : EReal := Ideal.logistic (px W r 2 j + Ideal.logistic (pt W r 0 j))
/-- The second time gate. -/
def time2 (j : Fin 1024) : EReal := Ideal.logistic (px W r 3 j + Ideal.logistic (pt W r 1 j))
/-- The cell candidate. -/
def cand (j : Fin 1024) : EReal := Ideal.tanh (px W r 4 j + ph W r 2 j)
/-- What the forget gate keeps of the previous cell state. -/
def keep (j : Fin 1024) : EReal := gateF W r j * r.c j
/-- The intermediate cell state (time gate 1). -/
def cCurl (j : Fin 1024) : EReal := gateI W r j * time1 W r j * cand W r j + keep W r j
/-- The next cell state (time gate 2). -/
def cNext (j : Fin 1024) : EReal := gateI W r j * time2 W r j * cand W r j + keep W r j
/-- The output gate, which also sees the intermediate cell state through `Woc`. -/
def gateO (j : Fin 1024) : EReal :=
  Ideal.logistic (((px W r 5 j + pt W r 2 j) + ph W r 3 j) + ∑ k, cCurl W r k * W.Woc k j)
/-- The next hidden state. -/
def hNext (j : Fin 1024) : EReal := gateO W r j * Ideal.tanh (cCurl W r j)

/-! ## The cell over whole arrays -/

/-- The weights read off the argument arrays. -/
def weightsOf (Wx : (⟨2, ![512, 6144]⟩ : Shape).Idx → EReal) (bx : (⟨1, ![6144]⟩ : Shape).Idx → EReal)
    (Wh : (⟨2, ![1024, 4096]⟩ : Shape).Idx → EReal) (Wc : (⟨2, ![1024, 2048]⟩ : Shape).Idx → EReal)
    (Wt : (⟨2, ![64, 3072]⟩ : Shape).Idx → EReal) (Woc : (⟨2, ![1024, 1024]⟩ : Shape).Idx → EReal) : Weights where
  Wx k j := Wx (ValueIdx.ix2 k j)
  bx j := bx (ValueIdx.ix1 j)
  Wh k j := Wh (ValueIdx.ix2 k j)
  Wc k j := Wc (ValueIdx.ix2 k j)
  Wt k j := Wt (ValueIdx.ix2 k j)
  Woc k j := Woc (ValueIdx.ix2 k j)

/-- Row `i` of the batch arrays. -/
def rowOf (x : (⟨2, ![16384, 512]⟩ : Shape).Idx → EReal) (h c : (⟨2, ![16384, 1024]⟩ : Shape).Idx → EReal)
    (d : (⟨2, ![16384, 64]⟩ : Shape).Idx → EReal) (i : Fin 16384) : Row where
  x k := x (ValueIdx.ix2 i k)
  h k := h (ValueIdx.ix2 i k)
  c k := c (ValueIdx.ix2 i k)
  d k := d (ValueIdx.ix2 i k)

/-- The next hidden state of every batch row, as one array. -/
def hNextArr (x : (⟨2, ![16384, 512]⟩ : Shape).Idx → EReal) (h c : (⟨2, ![16384, 1024]⟩ : Shape).Idx → EReal)
    (d : (⟨2, ![16384, 64]⟩ : Shape).Idx → EReal) (W : Weights) : (⟨2, ![16384, 1024]⟩ : Shape).Idx → EReal :=
  fun i => hNext W (rowOf x h c d (i 0)) (i 1)

/-- The next cell state of every batch row, as one array. -/
def cNextArr (x : (⟨2, ![16384, 512]⟩ : Shape).Idx → EReal) (h c : (⟨2, ![16384, 1024]⟩ : Shape).Idx → EReal)
    (d : (⟨2, ![16384, 64]⟩ : Shape).Idx → EReal) (W : Weights) : (⟨2, ![16384, 1024]⟩ : Shape).Idx → EReal :=
  fun i => cNext W (rowOf x h c d (i 0)) (i 1)

theorem hNextArr_apply (x : (⟨2, ![16384, 512]⟩ : Shape).Idx → EReal) (h c : (⟨2, ![16384, 1024]⟩ : Shape).Idx → EReal)
    (d : (⟨2, ![16384, 64]⟩ : Shape).Idx → EReal) (W : Weights) (i : Fin 16384) (j : Fin 1024) :
    hNextArr x h c d W (ValueIdx.ix2 i j) = hNext W (rowOf x h c d i) j := rfl

theorem cNextArr_apply (x : (⟨2, ![16384, 512]⟩ : Shape).Idx → EReal) (h c : (⟨2, ![16384, 1024]⟩ : Shape).Idx → EReal)
    (d : (⟨2, ![16384, 64]⟩ : Shape).Idx → EReal) (W : Weights) (i : Fin 16384) (j : Fin 1024) :
    cNextArr x h c d W (ValueIdx.ix2 i j) = cNext W (rowOf x h c d i) j := rfl

end Cert.TimeLstm

end
-- ==== Proof.CellFused.lean ====
/-
  The same cell as the kernel arranges it: operands that feed one pair of gates are laid side by side, so
  that one longer contraction replaces several shorter ones.

  * input and forget gate: the row `[x | h | c]` (2560 entries) against `Wif` (2560 × 2048), whose row
    blocks are the input/forget bands of `Wx`, `Wh`, `Wc`;
  * candidate and output gate: the row `[x | h]` (1536 entries) against `Wko` (1536 × 2048);
  * the two time gates: `x` against `Wt12` (512 × 2048);
  each with the matching pair of bias bands added AFTER the contraction. The first 1024 columns of a
  2048-wide result belong to the first gate of the pair, the last 1024 to the second.
-/
import proofs.«423095_j91027536871502_3_alg».proof.Proof.Cell

noncomputable section

namespace Cert.TimeLstm

open Idealize.ShloMosaic

/-- The first half of a 2048-wide pair. -/
def lo (j : Fin 1024) : Fin 2048 := ⟨j.val, by omega⟩
/-- The second half of a 2048-wide pair. -/
def hi (j : Fin 1024) : Fin 2048 := ⟨1024 + j.val, by omega⟩

/-- The operands as the kernel holds them. -/
structure Fused where
  Wif : Fin 2560 → Fin 2048 → EReal
  Wko : Fin 1536 → Fin 2048 → EReal
  Wt12 : Fin 512 → Fin 2048 → EReal
  Wt : Fin 64 → Fin 3072 → EReal
  Woc : Fin 1024 → Fin 1024 → EReal
  bI : Fin 2048 → EReal
  bK : Fin 2048 → EReal
  bT : Fin 2048 → EReal

/-- The row `[x | h | c]`. -/
def xhc (r : Row) (k : Fin 2560) : EReal :=
  if h1 : k.val < 512 then r.x ⟨k.val, h1⟩
  else if h2 : k.val < 1536 then r.h ⟨k.val - 512, by omega⟩
  else r.c ⟨k.val - 1536, by omega⟩

/-- The row `[x | h]`. -/
def xh (r : Row) (k : Fin 1536) : EReal :=
  if h1 : k.val < 512 then r.x ⟨k.val, h1⟩ else r.h ⟨k.val - 512, by omega⟩

variable (G : Fused) (r : Row)

def ifRaw (q : Fin 2048) : EReal := (∑ k, xhc r k * G.Wif k q) + G.bI q
def koRaw (q : Fin 2048) : EReal := (∑ k, xh r k * G.Wko k q) + G.bK q
def t12Raw (q : Fin 2048) : EReal := (∑ k, r.x k * G.Wt12 k q) + G.bT q
def tAll (q : Fin 3072) : EReal := ∑ k, r.d k * G.Wt k q

def fI (j : Fin 1024) : EReal := Ideal.logistic (ifRaw G r (lo j))
def fF (j : Fin 1024) : EReal := Ideal.logistic (ifRaw G r (hi j))
def fK (j : Fin 1024) : EReal := Ideal.tanh (koRaw G r (lo j))
def fT1 (j : Fin 1024) : EReal := Ideal.logistic (t12Raw G r (lo j) + Ideal.logistic (tAll G r (col3 0 j)))
def fT2 (j : Fin 1024) : EReal := Ideal.logistic (t12Raw G r (hi j) + Ideal.logistic (tAll G r (col3 1 j)))
def fKeep (j : Fin 1024) : EReal := fF G r j * r.c j
def fCurl (j : Fin 1024) : EReal := fI G r j * fT1 G r j * fK G r j + fKeep G r j
def fCNext (j : Fin 1024) : EReal := fI G r j * fT2 G r j * fK G r j + fKeep G r j
def fO (j : Fin 1024) : EReal :=
  Ideal.logistic ((koRaw G r (hi j) + tAll G r (col3 2 j)) + ∑ k, fCurl G r k * G.Woc k j)
def fHNext (j : Fin 1024) : EReal := fO G r j * Ideal.tanh (fCurl G r j)

/-- Column `q` of a 2048-wide pair made of bands `a` and `b` of six. -/
def pair6 (a b : Fin 6) (q : Fin 2048) : Fin 6144 :=
  if h : q.val < 1024 then col6 a ⟨q.val, h⟩ else col6 b ⟨q.val - 1024, by omega⟩
def pair4 (a b : Fin 4) (q : Fin 2048) : Fin 4096 :=
  if h : q.val < 1024 then col4 a ⟨q.val, h⟩ else col4 b ⟨q.val - 1024, by omega⟩
def pair2 (a b : Fin 2) (q : Fin 2048) : Fin 2048 :=
  if h : q.val < 1024 then col2 a ⟨q.val, h⟩ else col2 b ⟨q.val - 1024, by omega⟩

/-- The kernel's operands made from the cell's weights: row blocks stacked, column bands paired. -/
def fuse (W : Weights) : Fused where
  Wif k q :=
    if h1 : k.val < 512 then W.Wx ⟨k.val, h1⟩ (pair6 0 1 q)
    else if h2 : k.val < 1536 then W.Wh ⟨k.val - 512, by omega⟩ (pair4 0 1 q)
    else W.Wc ⟨k.val - 1536, by omega⟩ (pair2 0 1 q)
  Wko k q :=
    if h1 : k.val < 512 then W.Wx ⟨k.val, h1⟩ (pair6 4 5 q)
    else W.Wh ⟨k.val - 512, by omega⟩ (pair4 2 3 q)
  Wt12 k q := W.Wx k (pair6 2 3 q)
  Wt := W.Wt
  Woc := W.Woc
  bI q := W.bx (pair6 0 1 q)
  bK q := W.bx (pair6 4 5 q)
  bT q := W.bx (pair6 2 3 q)

end Cert.TimeLstm

end
-- ==== Proof.KernelOperands.lean ====
/-
  How the launch's operands at one grid point are read as a batch row and as the kernel's fused weights.

  A grid point holds 256 rows of the batch: row `p` of the four input blocks is one `Row`. The eight
  resident operands (three bias pairs, five matrices) are the fields of `Fused`; a bias pair is a
  1 × 2048 block, read at its one row.
-/
import proofs.«423095_j91027536871502_3_alg».proof.KernelIdeal
import proofs.«423095_j91027536871502_3_alg».proof.Proof.CellFused

noncomputable section

namespace Cert.KernelIdeal.Hand

open Cert.KernelIdeal Idealize.ShloMosaic

/-- Row `p` of the four input blocks of a grid point. -/
def blockRow (x0 : Vec Ideal S256x512 .f32) (x1 x2 : Vec Ideal S256x1024 .f32) (x3 : Vec Ideal S256x64 .f32)
    (p : Fin 256) : Cert.TimeLstm.Row where
  x k := x0 (ValueIdx.ix2 p k)
  h k := x1 (ValueIdx.ix2 p k)
  c k := x2 (ValueIdx.ix2 p k)
  d k := x3 (ValueIdx.ix2 p k)

/-- The resident operands as the kernel's fused weights. -/
def fusedOf (b4 b5 b6 : Vec Ideal S1x2048 .f32) (w7 : Vec Ideal S2560x2048 .bf16) (w8 : Vec Ideal S1536x2048 .bf16)
    (w9 : Vec Ideal S512x2048 .bf16) (w10 : Vec Ideal S64x3072 .bf16) (w11 : Vec Ideal S1024x1024 .bf16) :
    Cert.TimeLstm.Fused where
  Wif k q := w7 (ValueIdx.ix2 k q)
  Wko k q := w8 (ValueIdx.ix2 k q)
  Wt12 k q := w9 (ValueIdx.ix2 k q)
  Wt k q := w10 (ValueIdx.ix2 k q)
  Woc k q := w11 (ValueIdx.ix2 k q)
  bI q := b4 (ValueIdx.ix2 (0 : Fin 1) q)
  bK q := b5 (ValueIdx.ix2 (0 : Fin 1) q)
  bT q := b6 (ValueIdx.ix2 (0 : Fin 1) q)

end Cert.KernelIdeal.Hand

end
-- ==== Proof.KernelCell.lean ====
/-
  The kernel body's pure values read at one index of the block.

  A grid point holds 256 batch rows. Each named value of the body, read at row `p` and one column, is
  the matching quantity of the fused cell at the batch row `blockRow x0 x1 x2 x3 p` with the fused
  weights `fusedOf b4 b5 b6 w7 w8 w9 w10 w11`: a product into a zero accumulator is the plain sum over the
  contracted axis, a side-by-side concatenation read at a column is the piece that holds the column, a
  bias row broadcast over the block is the bias at the column, a slice of a pair of gates is one half
  of the pair, and a narrowing of the format is the identity on extended reals.
-/
import proofs.«423095_j91027536871502_3_alg».proof.Proof.Gen.KernelIdeal.Skeleton
import proofs.«423095_j91027536871502_3_alg».proof.Proof.KernelOperands
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic
open Idealize.ShloMosaic.ValueIdx
open Cert.TimeLstm

namespace KernelCell

/-! ## A plain product into a zero accumulator -/

/-- A rows-by-columns product `M×K` by `K×N` into the zero accumulator, read at `(p, q)`, is the sum over
    the contracted axis of the products of row `p` and column `q`. -/
theorem matmul_plain_zero_apply {M K N : Nat} {φ₁ φ₂ : FTy} (a : FVec Ideal ⟨2, ![M, K]⟩ φ₁)
    (b : FVec Ideal ⟨2, ![K, N]⟩ φ₂) (p : Fin M) (q : Fin N) :
    FloatOps.matmul (DotDims.plain M K N) none a b (constant (F := Ideal) ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl _ _).trans hk
      | ⟨1, _⟩ => rfl)
  rw [el, er]

/-- The body's five products are plain ones. -/
theorem dot2560_eq : dot_S256x2560_S2560x2048_S256x2048_1_0_0_1_n_n = DotDims.plain 256 2560 2048 := rfl
theorem dot1536_eq : dot_S256x1536_S1536x2048_S256x2048_1_0_0_1_n_n = DotDims.plain 256 1536 2048 := rfl
theorem dot512_eq : dot_S256x512_S512x2048_S256x2048_1_0_0_1_n_n = DotDims.plain 256 512 2048 := rfl
theorem dot64_eq : dot_S256x64_S64x3072_S256x3072_1_0_0_1_n_n = DotDims.plain 256 64 3072 := rfl
theorem dot1024_eq : dot_S256x1024_S1024x1024_S256x1024_1_0_0_1_n_n = DotDims.plain 256 1024 1024 := rfl

/-! ## The operands of the three wide products -/

section Operands

variable (x0 : Vec Ideal S256x512 .f32) (x1 x2 : Vec Ideal S256x1024 .f32) (x3 : Vec Ideal S256x64 .f32)
  (b4 b5 b6 : Vec Ideal S1x2048 .f32) (w7 : Vec Ideal S2560x2048 .bf16) (w8 : Vec Ideal S1536x2048 .bf16)
  (w9 : Vec Ideal S512x2048 .bf16) (w10 : Vec Ideal S64x3072 .bf16) (w11 : Vec Ideal S1024x1024 .bf16)

/-- The three blocks laid side by side, read at row `p` and column `k`, are the row `[x | h | c]`. -/
theorem cat3_apply (p : Fin 256) (k : Fin 2560) :
    concatenate S256x2560 1 [⟨S256x512, k0_pay6 (F := Ideal) x0⟩, ⟨S256x1024, k0_pay7 (F := Ideal) x1⟩,
        ⟨S256x1024, truncf (F := Ideal) .bf16 x2 Facts₀.bitsLt_bf16_f32⟩]
      Facts₀.concatenates_S256x512_S256x1024_S256x1024_S256x2560_d1 (ix2 p k)
      = xhc (blockRow x0 x1 x2 x3 p) k := by
  unfold xhc
  by_cases h1 : k.val < 512
  · rw [dif_pos h1]
    exact concatenate_apply_piece 1 _ _ (ix2 p k) 0 (by show 0 < 3; omega) S256x512 (k0_pay6 (F := Ideal) x0) rfl rfl 0 rfl
      (ix2 p ⟨k.val, h1⟩) (fun b hb => by
        match b, hb with
        | ⟨0, _⟩, _ => rfl
        | ⟨1, _⟩, hb => exact absurd rfl hb) (Nat.zero_add _)
  · rw [dif_neg h1]
    by_cases h2 : k.val < 1536
    · rw [dif_pos h2]
      exact concatenate_apply_piece 1 _ _ (ix2 p k) 1 (by show 1 < 3; omega) S256x1024 (k0_pay7 (F := Ideal) x1) rfl rfl 512 rfl
        (ix2 p ⟨k.val - 512, by omega⟩) (fun b hb => by
          match b, hb with
          | ⟨0, _⟩, _ => rfl
          | ⟨1, _⟩, hb => exact absurd rfl hb) (by show 512 + (k.val - 512) = k.val; omega)
    · rw [dif_neg h2]
      exact concatenate_apply_piece 1 _ _ (ix2 p k) 2 (by show 2 < 3; omega) S256x1024
        (truncf (F := Ideal) .bf16 x2 Facts₀.bitsLt_bf16_f32) rfl rfl 1536 rfl
        (ix2 p ⟨k.val - 1536, by have := k.isLt; omega⟩) (fun b hb => by
          match b, hb with
          | ⟨0, _⟩, _ => rfl
          | ⟨1, _⟩, hb => exact absurd rfl hb) (by show 1536 + (k.val - 1536) = k.val; omega)

/-- The two blocks laid side by side, read at row `p` and column `k`, are the row `[x | h]`. -/
theorem cat2_apply (p : Fin 256) (k : Fin 1536) :
    concatenate S256x1536 1 [⟨S256x512, k0_pay6 (F := Ideal) x0⟩, ⟨S256x1024, k0_pay7 (F := Ideal) x1⟩]
      Facts₀.concatenates_S256x512_S256x1024_S256x1536_d1 (ix2 p k)
      = xh (blockRow x0 x1 x2 x3 p) k := by
  unfold xh
  by_cases h1 : k.val < 512
  · rw [dif_pos h1]
    exact concatenate_pair_apply_left (s₁ := S256x512) (s₂ := S256x1024) 1 (k0_pay6 (F := Ideal) x0) (k0_pay7 (F := Ideal) x1) _ (ix2 p k) rfl (ix2 p ⟨k.val, h1⟩) (fun b => by
      match b with
      | ⟨0, _⟩ => rfl
      | ⟨1, _⟩ => rfl)
  · rw [dif_neg h1]
    exact concatenate_pair_apply_right (s₁ := S256x512) (s₂ := S256x1024) 1 (k0_pay6 (F := Ideal) x0) (k0_pay7 (F := Ideal) x1) _ (ix2 p k) rfl rfl (ix2 p ⟨k.val - 512, by have := k.isLt; omega⟩)
      (fun b hb => by
        match b, hb with
        | ⟨0, _⟩, _ => rfl
        | ⟨1, _⟩, hb => exact absurd rfl hb) (by show (k.val - 512) + 512 = k.val; omega)

/-- A bias row, broadcast over the block's rows, read at `(p, q)` is the bias at column `q`. -/
theorem bias_apply (b : Vec Ideal S1x2048 .f32) (p : Fin 256) (q : Fin 2048) :
    broadcastTo S256x2048 (shapeCast S1x2048 b Facts₀.shapeCasts_S1x2048_S1x2048) Facts₀.broadcasts_S1x2048_S256x2048 (ix2 p q)
      = b (ix2 (0 : Fin 1) q) :=
  (broadcastTo_1b_ab_apply _ _ p q).trans (congrFun (shapeCast_self b _) _)

end Operands

/-! ## The body's values at an index -/

section Payloads

variable (x0 : Vec Ideal S256x512 .f32) (x1 x2 : Vec Ideal S256x1024 .f32) (x3 : Vec Ideal S256x64 .f32)
  (b4 b5 b6 : Vec Ideal S1x2048 .f32) (w7 : Vec Ideal S2560x2048 .bf16) (w8 : Vec Ideal S1536x2048 .bf16)
  (w9 : Vec Ideal S512x2048 .bf16) (w10 : Vec Ideal S64x3072 .bf16) (w11 : Vec Ideal S1024x1024 .bf16)

/-- The input/forget pair before its sigmoid. -/
theorem pay9_apply (p : Fin 256) (q : Fin 2048) :
    k0_pay9 (F := Ideal) x0 x1 x2 w7 b4 (ix2 p q)
      = ifRaw (fusedOf b4 b5 b6 w7 w8 w9 w10 w11) (blockRow x0 x1 x2 x3 p) q := by
  unfold k0_pay9 ifRaw
  refine (addf_apply _ _ _).trans ?_
  refine congrArg₂ (· + ·) ?_ (bias_apply b4 p q)
  refine (matmul_plain_zero_apply (M := 256) (K := 2560) (N := 2048) _ _ p q).trans ?_
  refine Finset.sum_congr rfl fun k _ => ?_
  exact congrArg₂ (· * ·) (cat3_apply x0 x1 x2 x3 p k) (congrFun (shapeCast_self w7 _) _)

/-- The candidate/output pair before its squashing. -/
theorem pay12_apply (p : Fin 256) (q : Fin 2048) :
    k0_pay12 (F := Ideal) x0 x1 w8 b5 (ix2 p q)
      = koRaw (fusedOf b4 b5 b6 w7 w8 w9 w10 w11) (blockRow x0 x1 x2 x3 p) q := by
  unfold k0_pay12 koRaw
  refine (addf_apply _ _ _).trans ?_
  refine congrArg₂ (· + ·) ?_ (bias_apply b5 p q)
  refine (matmul_plain_zero_apply (M := 256) (K := 1536) (N := 2048) _ _ p q).trans ?_
  refine Finset.sum_congr rfl fun k _ => ?_
  exact congrArg₂ (· * ·) (cat2_apply x0 x1 x2 x3 p k) (congrFun (shapeCast_self w8 _) _)

/-- The pair of time projections with its bias. -/
theorem pay1_apply (p : Fin 256) (q : Fin 2048) :
    k0_pay1 (F := Ideal) (k0_pay15 x0 w9) (k0_pay16 b6) (ix2 p q)
      = t12Raw (fusedOf b4 b5 b6 w7 w8 w9 w10 w11) (blockRow x0 x1 x2 x3 p) q := by
  unfold k0_pay1 k0_pay15 k0_pay16 t12Raw
  refine (addf_apply _ _ _).trans ?_
  refine congrArg₂ (· + ·) ?_ (bias_apply b6 p q)
  refine (matmul_plain_zero_apply (M := 256) (K := 512) (N := 2048) _ _ p q).trans ?_
  refine Finset.sum_congr rfl fun k _ => ?_
  exact congrArg₂ (· * ·) rfl (congrFun (shapeCast_self w9 _) _)

/-- The three projections of the time embedding. -/
theorem pay2_apply (p : Fin 256) (q : Fin 3072) :
    k0_pay2 (F := Ideal) (k0_pay8 x3) w10 (ix2 p q)
      = tAll (fusedOf b4 b5 b6 w7 w8 w9 w10 w11) (blockRow x0 x1 x2 x3 p) q := by
  unfold k0_pay2 tAll
  refine (matmul_plain_zero_apply (M := 256) (K := 64) (N := 3072) _ _ p q).trans ?_
  refine Finset.sum_congr rfl fun k _ => ?_
  exact congrArg₂ (· * ·) rfl (congrFun (shapeCast_self w10 _) _)

/-- The input gate. -/
theorem pay10_apply (p : Fin 256) (q : Fin 1024) :
    k0_pay10 (F := Ideal) x0 x1 x2 w7 b4 (ix2 p q)
      = fI (fusedOf b4 b5 b6 w7 w8 w9 w10 w11) (blockRow x0 x1 x2 x3 p) q := by
  unfold k0_pay10 fI
  refine congrArg Ideal.logistic ?_
  exact (slice2_axis1_apply 0 _ _ p q (lo q) (Nat.zero_add _).symm).trans
    (pay9_apply x0 x1 x2 x3 b4 b5 b6 w7 w8 w9 w10 w11 p (lo q))

/-- The forget gate. -/
theorem pay11_apply (p : Fin 256) (q : Fin 1024) :
    k0_pay11 (F := Ideal) x0 x1 x2 w7 b4 (ix2 p q)
      = fF (fusedOf b4 b5 b6 w7 w8 w9 w10 w11) (blockRow x0 x1 x2 x3 p) q := by
  unfold k0_pay11 fF
  refine congrArg Ideal.logistic ?_
  exact (slice2_axis1_apply 1024 _ _ p q (hi q) rfl).trans
    (pay9_apply x0 x1 x2 x3 b4 b5 b6 w7 w8 w9 w10 w11 p (hi q))

/-- The cell candidate. -/
theorem pay13_apply (p : Fin 256) (q : Fin 1024) :
    k0_pay13 (F := Ideal) x0 x1 w8 b5 (ix2 p q)
      = fK (fusedOf b4 b5 b6 w7 w8 w9 w10 w11) (blockRow x0 x1 x2 x3 p) q := by
  unfold k0_pay13 fK
  refine congrArg Ideal.tanh ?_
  exact (slice2_axis1_apply 0 _ _ p q (lo q) (Nat.zero_add _).symm).trans
    (pay12_apply x0 x1 x2 x3 b4 b5 b6 w7 w8 w9 w10 w11 p (lo q))

/-- The output gate's share of the candidate/output pair. -/
theorem pay14_apply (p : Fin 256) (q : Fin 1024) :
    k0_pay14 (F := Ideal) x0 x1 w8 b5 (ix2 p q)
      = koRaw (fusedOf b4 b5 b6 w7 w8 w9 w10 w11) (blockRow x0 x1 x2 x3 p) (hi q) := by
  unfold k0_pay14
  exact (slice2_axis1_apply 1024 _ _ p q (hi q) rfl).trans
    (pay12_apply x0 x1 x2 x3 b4 b5 b6 w7 w8 w9 w10 w11 p (hi q))

/-- What the forget gate keeps of the previous cell state. -/
theorem pay3_apply (p : Fin 256) (q : Fin 1024) :
    k0_pay3 (F := Ideal) x2 (k0_pay11 x0 x1 x2 w7 b4) (ix2 p q)
      = fKeep (fusedOf b4 b5 b6 w7 w8 w9 w10 w11) (blockRow x0 x1 x2 x3 p) q := by
  unfold k0_pay3 fKeep
  refine (mulf_apply _ _ _).trans ?_
  exact congrArg₂ (· * ·) (pay11_apply x0 x1 x2 x3 b4 b5 b6 w7 w8 w9 w10 w11 p q) rfl

end Payloads

/-! ## The time gates, the two cell states and the hidden state -/

section Cell

variable (x0 : Vec Ideal S256x512 .f32) (x1 x2 : Vec Ideal S256x1024 .f32) (x3 : Vec Ideal S256x64 .f32)
  (b4 b5 b6 : Vec Ideal S1x2048 .f32) (w7 : Vec Ideal S2560x2048 .bf16) (w8 : Vec Ideal S1536x2048 .bf16)
  (w9 : Vec Ideal S512x2048 .bf16) (w10 : Vec Ideal S64x3072 .bf16) (w11 : Vec Ideal S1024x1024 .bf16)

/-- The first time gate. -/
theorem time1_apply (p : Fin 256) (q : Fin 1024) :
    logistic (addf
        (extractStridedSlice S256x1024 ![0, 0] (k0_pay1 (F := Ideal) (k0_pay15 x0 w9) (k0_pay16 b6))
          Facts₀.slices_S256x2048_o0_0_S256x1024)
        (logistic (extractStridedSlice S256x1024 ![0, 0] (k0_pay2 (F := Ideal) (k0_pay8 x3) w10)
          Facts₀.slices_S256x3072_o0_0_S256x1024))) (ix2 p q)
      = fT1 (fusedOf b4 b5 b6 w7 w8 w9 w10 w11) (blockRow x0 x1 x2 x3 p) q := by
  unfold fT1
  refine congrArg Ideal.logistic ?_
  refine (addf_apply _ _ _).trans ?_
  refine congrArg₂ (· + ·) ?_ (congrArg Ideal.logistic ?_)
  · exact (slice2_axis1_apply 0 _ _ p q (lo q) (Nat.zero_add _).symm).trans
      (pay1_apply x0 x1 x2 x3 b4 b5 b6 w7 w8 w9 w10 w11 p (lo q))
  · exact (slice2_axis1_apply 0 _ _ p q (col3 0 q) (by show 1024 * 0 + q.val = 0 + q.val; omega)).trans
      (pay2_apply x0 x1 x2 x3 b4 b5 b6 w7 w8 w9 w10 w11 p (col3 0 q))

/-- The second time gate. -/
theorem time2_apply (p : Fin 256) (q : Fin 1024) :
    logistic (addf
        (extractStridedSlice S256x1024 ![0, 1024] (k0_pay1 (F := Ideal) (k0_pay15 x0 w9) (k0_pay16 b6))
          Facts₀.slices_S256x2048_o0_1024_S256x1024)
        (logistic (extractStridedSlice S256x1024 ![0, 1024] (k0_pay2 (F := Ideal) (k0_pay8 x3) w10)
          Facts₀.slices_S256x3072_o0_1024_S256x1024))) (ix2 p q)
      = fT2 (fusedOf b4 b5 b6 w7 w8 w9 w10 w11) (blockRow x0 x1 x2 x3 p) q := by
  unfold fT2
  refine congrArg Ideal.logistic ?_
  refine (addf_apply _ _ _).trans ?_
  refine congrArg₂ (· + ·) ?_ (congrArg Ideal.logistic ?_)
  · exact (slice2_axis1_apply 1024 _ _ p q (hi q) rfl).trans
      (pay1_apply x0 x1 x2 x3 b4 b5 b6 w7 w8 w9 w10 w11 p (hi q))
  · exact (slice2_axis1_apply 1024 _ _ p q (col3 1 q) (by show 1024 * 1 + q.val = 1024 + q.val; omega)).trans
      (pay2_apply x0 x1 x2 x3 b4 b5 b6 w7 w8 w9 w10 w11 p (col3 1 q))

/-- The intermediate cell state, as the body forms it. -/
theorem curl_apply (p : Fin 256) (q : Fin 1024) :
    addf (mulf (mulf (k0_pay10 (F := Ideal) x0 x1 x2 w7 b4)
        (logistic (addf
          (extractStridedSlice S256x1024 ![0, 0] (k0_pay1 (F := Ideal) (k0_pay15 x0 w9) (k0_pay16 b6))
            Facts₀.slices_S256x2048_o0_0_S256x1024)
          (logistic (extractStridedSlice S256x1024 ![0, 0] (k0_pay2 (F := Ideal) (k0_pay8 x3) w10)
            Facts₀.slices_S256x3072_o0_0_S256x1024)))))
        (k0_pay13 (F := Ideal) x0 x1 w8 b5))
      (k0_pay3 (F := Ideal) x2 (k0_pay11 x0 x1 x2 w7 b4)) (ix2 p q)
      = fCurl (fusedOf b4 b5 b6 w7 w8 w9 w10 w11) (blockRow x0 x1 x2 x3 p) q := by
  unfold fCurl
  refine (addf_apply _ _ _).trans ?_
  refine congrArg₂ (· + ·) ?_ (pay3_apply x0 x1 x2 x3 b4 b5 b6 w7 w8 w9 w10 w11 p q)
  refine (mulf_apply _ _ _).trans ?_
  refine congrArg₂ (· * ·) ?_ (pay13_apply x0 x1 x2 x3 b4 b5 b6 w7 w8 w9 w10 w11 p q)
  refine (mulf_apply _ _ _).trans ?_
  exact congrArg₂ (· * ·) (pay10_apply x0 x1 x2 x3 b4 b5 b6 w7 w8 w9 w10 w11 p q)
    (time1_apply x0 x1 x2 x3 b4 b5 b6 w7 w8 w9 w10 w11 p q)

end Cell

end KernelCell

open KernelCell

/-! ## The two stored values -/

section Stored

variable (x0 : Vec Ideal S256x512 .f32) (x1 x2 : Vec Ideal S256x1024 .f32) (x3 : Vec Ideal S256x64 .f32)
  (b4 b5 b6 : Vec Ideal S1x2048 .f32) (w7 : Vec Ideal S2560x2048 .bf16) (w8 : Vec Ideal S1536x2048 .bf16)
  (w9 : Vec Ideal S512x2048 .bf16) (w10 : Vec Ideal S64x3072 .bf16) (w11 : Vec Ideal S1024x1024 .bf16)

/-- The next cell state. -/
theorem cPayload_apply (p : Fin 256) (q : Fin 1024) :
    k0_pay4 (F := Ideal) x2 (k0_pay8 x3) (k0_pay10 x0 x1 x2 w7 b4) (k0_pay11 x0 x1 x2 w7 b4) (k0_pay13 x0 x1 w8 b5)
        (k0_pay15 x0 w9) (k0_pay16 b6) w10 (ValueIdx.ix2 p q)
      = Cert.TimeLstm.fCNext (fusedOf b4 b5 b6 w7 w8 w9 w10 w11) (blockRow x0 x1 x2 x3 p) q := by
  unfold k0_pay4 fCNext
  refine (addf_apply _ _ _).trans ?_
  refine congrArg₂ (· + ·) ?_ (pay3_apply x0 x1 x2 x3 b4 b5 b6 w7 w8 w9 w10 w11 p q)
  refine (mulf_apply _ _ _).trans ?_
  refine congrArg₂ (· * ·) ?_ (pay13_apply x0 x1 x2 x3 b4 b5 b6 w7 w8 w9 w10 w11 p q)
  refine (mulf_apply _ _ _).trans ?_
  exact congrArg₂ (· * ·) (pay10_apply x0 x1 x2 x3 b4 b5 b6 w7 w8 w9 w10 w11 p q)
    (time2_apply x0 x1 x2 x3 b4 b5 b6 w7 w8 w9 w10 w11 p q)

/-- The next hidden state. -/
theorem hPayload_apply (p : Fin 256) (q : Fin 1024) :
    k0_pay5 (F := Ideal) x2 (k0_pay8 x3) (k0_pay10 x0 x1 x2 w7 b4) (k0_pay11 x0 x1 x2 w7 b4) (k0_pay13 x0 x1 w8 b5)
        (k0_pay14 x0 x1 w8 b5) (k0_pay15 x0 w9) (k0_pay16 b6) w10 w11 (ValueIdx.ix2 p q)
      = Cert.TimeLstm.fHNext (fusedOf b4 b5 b6 w7 w8 w9 w10 w11) (blockRow x0 x1 x2 x3 p) q := by
  unfold k0_pay5 fHNext fO
  refine (mulf_apply _ _ _).trans ?_
  refine congrArg₂ (· * ·) (congrArg Ideal.logistic ?_)
    (congrArg Ideal.tanh (curl_apply x0 x1 x2 x3 b4 b5 b6 w7 w8 w9 w10 w11 p q))
  refine (addf_apply _ _ _).trans ?_
  refine congrArg₂ (· + ·) ?_ ?_
  · refine (addf_apply _ _ _).trans ?_
    refine congrArg₂ (· + ·) (pay14_apply x0 x1 x2 x3 b4 b5 b6 w7 w8 w9 w10 w11 p q) ?_
    exact (slice2_axis1_apply 2048 _ _ p q (col3 2 q) (by show 1024 * 2 + q.val = 2048 + q.val; omega)).trans
      (pay2_apply x0 x1 x2 x3 b4 b5 b6 w7 w8 w9 w10 w11 p (col3 2 q))
  · refine (matmul_plain_zero_apply (M := 256) (K := 1024) (N := 1024) _ _ p q).trans ?_
    refine Finset.sum_congr rfl fun k _ => ?_
    exact congrArg₂ (· * ·) (curl_apply x0 x1 x2 x3 b4 b5 b6 w7 w8 w9 w10 w11 p k)
      (congrFun (shapeCast_self w11 _) _)

end Stored

end Cert.KernelIdeal.Hand

end
-- ==== Proof.HostWeights.lean ====
/-
  The weights as the launch finds them.

  Before its one launch @main re-lays the weight arguments: it cuts the fused projections into their
  1024-column bands, puts the bands of one gate pair side by side, stacks the row blocks that one
  contraction runs over, narrows the matrices, and pairs the bias bands as one-row blocks. Each operand of
  the launch is therefore a short composition of slices, concatenations, a narrowing and a reshape of the
  arguments; read at an index, each is one entry of one argument. Entry by entry these are the fields of
  `Cert.TimeLstm.fuse` of the cell's weights: over the extended reals the narrowing is the identity.
-/
import proofs.«423095_j91027536871502_3_alg».proof.Proof.EntryIdeal
import proofs.«423095_j91027536871502_3_alg».proof.Proof.KernelOperands
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem

/-! ## The host operations' values

Each operand of the launch is the value of a short composition of slices, concatenations, narrowings and
reshapes of the weight arguments. -/

section HostResults

open StableHlo

variable {Val : EltTy → Type} {x a b y : Ref sig .tc}

/-- A three-operand operation's result, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end HostResults

/-- Rewrites the contents after the host operations, at one result buffer, to the operations' composed term. -/
macro "host_results" : tactic =>
  `(tactic| (simp (disch := decide) only [StableHlo.after_cons, StableHlo.after_nil,
      nary3_result', StableHlo.unary_result', StableHlo.binary_result', StableHlo.reshape_result',
      StableHlo.unary_result_ne', StableHlo.binary_result_ne', StableHlo.reshape_result_ne', StableHlo.nary_result_ne']))

variable (m : (ℓ : Loc nD τ sig) → Buf (Elt Ideal) ℓ)

/-- Two bias bands side by side, as a one-row block. -/
def biasPair (bx : Vec Ideal S6144 .f32) (o1 o2 : Nat) (h1 : S6144.Slices ![o1] S1024) (h2 : S6144.Slices ![o2] S1024) :
    Vec Ideal S1x2048 .f32 :=
  shapeCast S1x2048 (concatenate S2048 0
    [⟨S1024, extractStridedSlice S1024 ![o1] bx h1⟩, ⟨S1024, extractStridedSlice S1024 ![o2] bx h2⟩]
    concatenates_S1024_S1024_S2048_d0) shapeCasts_S2048_S1x2048

/-- Two column bands of the input projection side by side. -/
def xPair (W : Vec Ideal S512x6144 .f32) (o1 o2 : Nat) (h1 : S512x6144.Slices ![0, o1] S512x1024)
    (h2 : S512x6144.Slices ![0, o2] S512x1024) : Vec Ideal S512x2048 .f32 :=
  concatenate S512x2048 1 [⟨S512x1024, extractStridedSlice S512x1024 ![0, o1] W h1⟩,
    ⟨S512x1024, extractStridedSlice S512x1024 ![0, o2] W h2⟩] concatenates_S512x1024_S512x1024_S512x2048_d1

/-- Two column bands of the hidden projection side by side. -/
def hPair (W : Vec Ideal S1024x4096 .f32) (o1 o2 : Nat) (h1 : S1024x4096.Slices ![0, o1] S1024x1024)
    (h2 : S1024x4096.Slices ![0, o2] S1024x1024) : Vec Ideal S1024x2048 .f32 :=
  concatenate S1024x2048 1 [⟨S1024x1024, extractStridedSlice S1024x1024 ![0, o1] W h1⟩,
    ⟨S1024x1024, extractStridedSlice S1024x1024 ![0, o2] W h2⟩] concatenates_S1024x1024_S1024x1024_S1024x2048_d1

/-- The two column bands of the cell projection side by side. -/
def cPair (W : Vec Ideal S1024x2048 .f32) (o1 o2 : Nat) (h1 : S1024x2048.Slices ![0, o1] S1024x1024)
    (h2 : S1024x2048.Slices ![0, o2] S1024x1024) : Vec Ideal S1024x2048 .f32 :=
  concatenate S1024x2048 1 [⟨S1024x1024, extractStridedSlice S1024x1024 ![0, o1] W h1⟩,
    ⟨S1024x1024, extractStridedSlice S1024x1024 ![0, o2] W h2⟩] concatenates_S1024x1024_S1024x1024_S1024x2048_d1

/-- Three row blocks stacked. -/
def stack3 (A : Vec Ideal S512x2048 .f32) (B C : Vec Ideal S1024x2048 .f32) : Vec Ideal S2560x2048 .f32 :=
  concatenate S2560x2048 0 [⟨S512x2048, A⟩, ⟨S1024x2048, B⟩, ⟨S1024x2048, C⟩]
    concatenates_S512x2048_S1024x2048_S1024x2048_S2560x2048_d0

/-- Two row blocks stacked. -/
def stack2 (A : Vec Ideal S512x2048 .f32) (B : Vec Ideal S1024x2048 .f32) : Vec Ideal S1536x2048 .f32 :=
  concatenate S1536x2048 0 [⟨S512x2048, A⟩, ⟨S1024x2048, B⟩] concatenates_S512x2048_S1024x2048_S1536x2048_d0

theorem V_v32 (c : Dev nD) :
    (V m c main_v32 : Vec Ideal S1x2048 .f32)
      = biasPair (m ((c.tc : Thread nD τ).loc main_arg5)) 0 1024 slices_S6144_S1024_0 slices_S6144_S1024_1024 := by
  dsimp only [V, hostOps0]
  host_results
  rfl

theorem V_v34 (c : Dev nD) :
    (V m c main_v34 : Vec Ideal S1x2048 .f32)
      = biasPair (m ((c.tc : Thread nD τ).loc main_arg5)) 4096 5120 slices_S6144_S1024_4096 slices_S6144_S1024_5120 := by
  dsimp only [V, hostOps0]
  host_results
  rfl

theorem V_v36 (c : Dev nD) :
    (V m c main_v36 : Vec Ideal S1x2048 .f32)
      = biasPair (m ((c.tc : Thread nD τ).loc main_arg5)) 2048 3072 slices_S6144_S1024_2048 slices_S6144_S1024_3072 := by
  dsimp only [V, hostOps0]
  host_results
  rfl

theorem V_v22 (c : Dev nD) :
    (V m c main_v22 : Vec Ideal S2560x2048 .bf16)
      = (truncf (F := Ideal) .bf16 (stack3
          (xPair (m ((c.tc : Thread nD τ).loc main_arg4)) 0 1024 slices_S512x6144_S512x1024_0_0 slices_S512x6144_S512x1024_0_1024)
          (hPair (m ((c.tc : Thread nD τ).loc main_arg6)) 0 1024 slices_S1024x4096_S1024x1024_0_0 slices_S1024x4096_S1024x1024_0_1024)
          (cPair (m ((c.tc : Thread nD τ).loc main_arg7)) 0 1024 slices_S1024x2048_S1024x1024_0_0 slices_S1024x2048_S1024x1024_0_1024))
          bitsLt_bf16_f32 : Vec Ideal S2560x2048 .bf16) := by
  dsimp only [V, hostOps0]
  host_results
  rfl

theorem V_v26 (c : Dev nD) :
    (V m c main_v26 : Vec Ideal S1536x2048 .bf16)
      = (truncf (F := Ideal) .bf16 (stack2
          (xPair (m ((c.tc : Thread nD τ).loc main_arg4)) 4096 5120 slices_S512x6144_S512x1024_0_4096 slices_S512x6144_S512x1024_0_5120)
          (hPair (m ((c.tc : Thread nD τ).loc main_arg6)) 2048 3072 slices_S1024x4096_S1024x1024_0_2048 slices_S1024x4096_S1024x1024_0_3072))
          bitsLt_bf16_f32 : Vec Ideal S1536x2048 .bf16) := by
  dsimp only [V, hostOps0]
  host_results
  rfl

theorem V_v28 (c : Dev nD) :
    (V m c main_v28 : Vec Ideal S512x2048 .bf16)
      = (truncf (F := Ideal) .bf16
          (xPair (m ((c.tc : Thread nD τ).loc main_arg4)) 2048 3072 slices_S512x6144_S512x1024_0_2048 slices_S512x6144_S512x1024_0_3072)
          bitsLt_bf16_f32 : Vec Ideal S512x2048 .bf16) := by
  dsimp only [V, hostOps0]
  host_results
  rfl

theorem V_v29 (c : Dev nD) :
    (V m c main_v29 : Vec Ideal S64x3072 .bf16)
      = (truncf (F := Ideal) .bf16 (m ((c.tc : Thread nD τ).loc main_arg8) : Vec Ideal S64x3072 .f32) bitsLt_bf16_f32 : Vec Ideal S64x3072 .bf16) := by
  dsimp only [V, hostOps0]
  host_results

theorem V_v30 (c : Dev nD) :
    (V m c main_v30 : Vec Ideal S1024x1024 .bf16)
      = (truncf (F := Ideal) .bf16 (m ((c.tc : Thread nD τ).loc main_arg9) : Vec Ideal S1024x1024 .f32) bitsLt_bf16_f32 : Vec Ideal S1024x1024 .bf16) := by
  dsimp only [V, hostOps0]
  host_results

/-! ## The composed terms read at an index -/

/-- A pair of bias bands at column `q` is the bias at the band's column. -/
theorem biasPair_apply (bx : Vec Ideal S6144 .f32) (o1 o2 : Nat) (h1 : S6144.Slices ![o1] S1024) (h2 : S6144.Slices ![o2] S1024)
    (q : Fin 2048) (k : Fin 6144) (hk : k.val = if q.val < 1024 then o1 + q.val else o2 + (q.val - 1024)) :
    biasPair bx o1 o2 h1 h2 (ValueIdx.ix2 (0 : Fin 1) q) = bx (ValueIdx.ix1 k) := by
  unfold biasPair
  refine (shapeCast_apply _ _ (ValueIdx.ix2 (0 : Fin 1) q) (ValueIdx.ix1 q) ?_).trans ?_
  · rw [Shape.rowMajor_val_one, Shape.rowMajor_val_two]
    show q.val = (0 : Fin 1).val * 2048 + q.val
    simp
  by_cases hq : q.val < 1024
  · rw [if_pos hq] at hk
    refine (concatenate_pair_apply_left (s₁ := S1024) (s₂ := S1024) _ _ _ _ (ValueIdx.ix1 q) rfl (ValueIdx.ix1 ⟨q.val, hq⟩) ?_).trans ?_
    · intro b; match b with | ⟨0, _⟩ => rfl
    · exact extractStridedSlice_apply _ _ _ _ (ValueIdx.ix1 k) (fun a => match a with | ⟨0, _⟩ => hk)
  · rw [if_neg hq] at hk
    refine (concatenate_pair_apply_right (s₁ := S1024) (s₂ := S1024) _ _ _ _ (ValueIdx.ix1 q) rfl rfl (ValueIdx.ix1 ⟨q.val - 1024, by omega⟩) ?_ ?_).trans ?_
    · intro b hb; match b, hb with | ⟨0, _⟩, hb => exact (hb rfl).elim
    · show q.val - 1024 + 1024 = q.val
      omega
    · exact extractStridedSlice_apply _ _ _ _ (ValueIdx.ix1 k) (fun a => match a with | ⟨0, _⟩ => hk)

/-- A pair of column bands of the input projection at `(p, q)` is the projection at row `p` and the band's column. -/
theorem xPair_apply (W : Vec Ideal S512x6144 .f32) (o1 o2 : Nat) (h1 : S512x6144.Slices ![0, o1] S512x1024)
    (h2 : S512x6144.Slices ![0, o2] S512x1024) (p : Fin 512) (q : Fin 2048) (k : Fin 6144)
    (hk : k.val = if q.val < 1024 then o1 + q.val else o2 + (q.val - 1024)) :
    xPair W o1 o2 h1 h2 (ValueIdx.ix2 p q) = W (ValueIdx.ix2 p k) := by
  unfold xPair
  by_cases hq : q.val < 1024
  · rw [if_pos hq] at hk
    refine (concatenate_pair_apply_left (s₁ := S512x1024) (s₂ := S512x1024) _ _ _ _ (ValueIdx.ix2 p q) rfl (ValueIdx.ix2 p ⟨q.val, hq⟩) ?_).trans ?_
    · intro b; match b with | ⟨0, _⟩ => rfl | ⟨1, _⟩ => rfl
    · exact extractStridedSlice_apply _ _ _ _ (ValueIdx.ix2 p k)
        (fun a => match a with | ⟨0, _⟩ => (Nat.zero_add _).symm | ⟨1, _⟩ => hk)
  · rw [if_neg hq] at hk
    refine (concatenate_pair_apply_right (s₁ := S512x1024) (s₂ := S512x1024) _ _ _ _ (ValueIdx.ix2 p q) rfl rfl (ValueIdx.ix2 p ⟨q.val - 1024, by omega⟩) ?_ ?_).trans ?_
    · intro b hb; match b, hb with | ⟨0, _⟩, _ => rfl | ⟨1, _⟩, hb => exact (hb rfl).elim
    · show q.val - 1024 + 1024 = q.val
      omega
    · exact extractStridedSlice_apply _ _ _ _ (ValueIdx.ix2 p k)
        (fun a => match a with | ⟨0, _⟩ => (Nat.zero_add _).symm | ⟨1, _⟩ => hk)
/-- The same for the hidden projection. -/
theorem hPair_apply (W : Vec Ideal S1024x4096 .f32) (o1 o2 : Nat) (h1 : S1024x4096.Slices ![0, o1] S1024x1024)
    (h2 : S1024x4096.Slices ![0, o2] S1024x1024) (p : Fin 1024) (q : Fin 2048) (k : Fin 4096)
    (hk : k.val = if q.val < 1024 then o1 + q.val else o2 + (q.val - 1024)) :
    hPair W o1 o2 h1 h2 (ValueIdx.ix2 p q) = W (ValueIdx.ix2 p k) := by
  unfold hPair
  by_cases hq : q.val < 1024
  · rw [if_pos hq] at hk
    refine (concatenate_pair_apply_left (s₁ := S1024x1024) (s₂ := S1024x1024) _ _ _ _ (ValueIdx.ix2 p q) rfl (ValueIdx.ix2 p ⟨q.val, hq⟩) ?_).trans ?_
    · intro b; match b with | ⟨0, _⟩ => rfl | ⟨1, _⟩ => rfl
    · exact extractStridedSlice_apply _ _ _ _ (ValueIdx.ix2 p k)
        (fun a => match a with | ⟨0, _⟩ => (Nat.zero_add _).symm | ⟨1, _⟩ => hk)
  · rw [if_neg hq] at hk
    refine (concatenate_pair_apply_right (s₁ := S1024x1024) (s₂ := S1024x1024) _ _ _ _ (ValueIdx.ix2 p q) rfl rfl (ValueIdx.ix2 p ⟨q.val - 1024, by omega⟩) ?_ ?_).trans ?_
    · intro b hb; match b, hb with | ⟨0, _⟩, _ => rfl | ⟨1, _⟩, hb => exact (hb rfl).elim
    · show q.val - 1024 + 1024 = q.val
      omega
    · exact extractStridedSlice_apply _ _ _ _ (ValueIdx.ix2 p k)
        (fun a => match a with | ⟨0, _⟩ => (Nat.zero_add _).symm | ⟨1, _⟩ => hk)
/-- The same for the cell projection. -/
theorem cPair_apply (W : Vec Ideal S1024x2048 .f32) (o1 o2 : Nat) (h1 : S1024x2048.Slices ![0, o1] S1024x1024)
    (h2 : S1024x2048.Slices ![0, o2] S1024x1024) (p : Fin 1024) (q : Fin 2048) (k : Fin 2048)
    (hk : k.val = if q.val < 1024 then o1 + q.val else o2 + (q.val - 1024)) :
    cPair W o1 o2 h1 h2 (ValueIdx.ix2 p q) = W (ValueIdx.ix2 p k) := by
  unfold cPair
  by_cases hq : q.val < 1024
  · rw [if_pos hq] at hk
    refine (concatenate_pair_apply_left (s₁ := S1024x1024) (s₂ := S1024x1024) _ _ _ _ (ValueIdx.ix2 p q) rfl (ValueIdx.ix2 p ⟨q.val, hq⟩) ?_).trans ?_
    · intro b; match b with | ⟨0, _⟩ => rfl | ⟨1, _⟩ => rfl
    · exact extractStridedSlice_apply _ _ _ _ (ValueIdx.ix2 p k)
        (fun a => match a with | ⟨0, _⟩ => (Nat.zero_add _).symm | ⟨1, _⟩ => hk)
  · rw [if_neg hq] at hk
    refine (concatenate_pair_apply_right (s₁ := S1024x1024) (s₂ := S1024x1024) _ _ _ _ (ValueIdx.ix2 p q) rfl rfl (ValueIdx.ix2 p ⟨q.val - 1024, by omega⟩) ?_ ?_).trans ?_
    · intro b hb; match b, hb with | ⟨0, _⟩, _ => rfl | ⟨1, _⟩, hb => exact (hb rfl).elim
    · show q.val - 1024 + 1024 = q.val
      omega
    · exact extractStridedSlice_apply _ _ _ _ (ValueIdx.ix2 p k)
        (fun a => match a with | ⟨0, _⟩ => (Nat.zero_add _).symm | ⟨1, _⟩ => hk)

/-- Three stacked row blocks at `(k, q)`: the block that holds row `k`, at the row counted from the block's first. -/
theorem stack3_apply (A : Vec Ideal S512x2048 .f32) (B C : Vec Ideal S1024x2048 .f32) (k : Fin 2560) (q : Fin 2048) :
    stack3 A B C (ValueIdx.ix2 k q)
      = if h1 : k.val < 512 then A (ValueIdx.ix2 ⟨k.val, h1⟩ q)
        else if h2 : k.val < 1536 then B (ValueIdx.ix2 ⟨k.val - 512, by omega⟩ q)
        else C (ValueIdx.ix2 ⟨k.val - 1536, by omega⟩ q) := by
  unfold stack3
  by_cases h1 : k.val < 512
  · rw [dif_pos h1]
    refine concatenate_apply_piece _ _ _ (ValueIdx.ix2 k q) 0 (by simp) S512x2048 A rfl rfl 0 rfl
      (ValueIdx.ix2 ⟨k.val, h1⟩ q) ?_ ?_
    · intro b hb; match b, hb with | ⟨0, _⟩, hb => exact (hb rfl).elim | ⟨1, _⟩, _ => rfl
    · show 0 + k.val = k.val
      omega
  · rw [dif_neg h1]
    by_cases h2 : k.val < 1536
    · rw [dif_pos h2]
      refine concatenate_apply_piece _ _ _ (ValueIdx.ix2 k q) 1 (by simp) S1024x2048 B rfl rfl 512 rfl
        (ValueIdx.ix2 ⟨k.val - 512, by omega⟩ q) ?_ ?_
      · intro b hb; match b, hb with | ⟨0, _⟩, hb => exact (hb rfl).elim | ⟨1, _⟩, _ => rfl
      · show 512 + (k.val - 512) = k.val
        omega
    · rw [dif_neg h2]
      refine concatenate_apply_piece _ _ _ (ValueIdx.ix2 k q) 2 (by simp) S1024x2048 C rfl rfl 1536 rfl
        (ValueIdx.ix2 ⟨k.val - 1536, by omega⟩ q) ?_ ?_
      · intro b hb; match b, hb with | ⟨0, _⟩, hb => exact (hb rfl).elim | ⟨1, _⟩, _ => rfl
      · show 1536 + (k.val - 1536) = k.val
        omega

/-- Two stacked row blocks at `(k, q)`. -/
theorem stack2_apply (A : Vec Ideal S512x2048 .f32) (B : Vec Ideal S1024x2048 .f32) (k : Fin 1536) (q : Fin 2048) :
    stack2 A B (ValueIdx.ix2 k q)
      = if h1 : k.val < 512 then A (ValueIdx.ix2 ⟨k.val, h1⟩ q) else B (ValueIdx.ix2 ⟨k.val - 512, by omega⟩ q) := by
  unfold stack2
  by_cases h1 : k.val < 512
  · rw [dif_pos h1]
    refine concatenate_pair_apply_left (s₁ := S512x2048) (s₂ := S1024x2048) _ _ _ _ (ValueIdx.ix2 k q) rfl
      (ValueIdx.ix2 ⟨k.val, h1⟩ q) ?_
    intro b; match b with | ⟨0, _⟩ => rfl | ⟨1, _⟩ => rfl
  · rw [dif_neg h1]
    refine concatenate_pair_apply_right (s₁ := S512x2048) (s₂ := S1024x2048) _ _ _ _ (ValueIdx.ix2 k q) rfl rfl
      (ValueIdx.ix2 ⟨k.val - 512, by omega⟩ q) ?_ ?_
    · intro b hb; match b, hb with | ⟨0, _⟩, hb => exact (hb rfl).elim | ⟨1, _⟩, _ => rfl
    · show k.val - 512 + 512 = k.val
      omega

/-! ## The paired columns as naturals -/

open Cert.TimeLstm in
theorem pair6_val (a b : Fin 6) (q : Fin 2048) :
    (pair6 a b q).val = if q.val < 1024 then 1024 * a.val + q.val else 1024 * b.val + (q.val - 1024) := by
  unfold pair6; split <;> rfl

open Cert.TimeLstm in
theorem pair4_val (a b : Fin 4) (q : Fin 2048) :
    (pair4 a b q).val = if q.val < 1024 then 1024 * a.val + q.val else 1024 * b.val + (q.val - 1024) := by
  unfold pair4; split <;> rfl

open Cert.TimeLstm in
theorem pair2_val (a b : Fin 2) (q : Fin 2048) :
    (pair2 a b q).val = if q.val < 1024 then 1024 * a.val + q.val else 1024 * b.val + (q.val - 1024) := by
  unfold pair2; split <;> rfl

/-! ## The operands are the fused weights -/

section Assemble

open Cert.TimeLstm

/-- Two sets of fused operands are equal when they agree entry by entry. -/
theorem fused_ext {G G' : Fused} (h1 : ∀ k q, G.Wif k q = G'.Wif k q) (h2 : ∀ k q, G.Wko k q = G'.Wko k q)
    (h3 : ∀ k q, G.Wt12 k q = G'.Wt12 k q) (h4 : ∀ k q, G.Wt k q = G'.Wt k q) (h5 : ∀ k q, G.Woc k q = G'.Woc k q)
    (h6 : ∀ q, G.bI q = G'.bI q) (h7 : ∀ q, G.bK q = G'.bK q) (h8 : ∀ q, G.bT q = G'.bT q) : G = G' := by
  cases G; cases G'
  rw [Fused.mk.injEq]
  exact ⟨funext fun k => funext fun q => h1 k q, funext fun k => funext fun q => h2 k q,
    funext fun k => funext fun q => h3 k q, funext fun k => funext fun q => h4 k q,
    funext fun k => funext fun q => h5 k q, funext fun q => h6 q, funext fun q => h7 q, funext fun q => h8 q⟩

variable (Wx : Vec Ideal S512x6144 .f32) (bx : Vec Ideal S6144 .f32) (Wh : Vec Ideal S1024x4096 .f32)
  (Wc : Vec Ideal S1024x2048 .f32) (Wt : Vec Ideal S64x3072 .f32) (Woc : Vec Ideal S1024x1024 .f32)

/-- The stacked input/forget operand: rows of `Wx`, then of `Wh`, then of `Wc`, at the input and forget bands. -/
theorem Wif_host (k : Fin 2560) (q : Fin 2048) :
    stack3 (xPair Wx 0 1024 slices_S512x6144_S512x1024_0_0 slices_S512x6144_S512x1024_0_1024)
        (hPair Wh 0 1024 slices_S1024x4096_S1024x1024_0_0 slices_S1024x4096_S1024x1024_0_1024)
        (cPair Wc 0 1024 slices_S1024x2048_S1024x1024_0_0 slices_S1024x2048_S1024x1024_0_1024) (ValueIdx.ix2 k q)
      = (fuse (weightsOf Wx bx Wh Wc Wt Woc)).Wif k q := by
  rw [stack3_apply]
  dsimp only [fuse, weightsOf]
  split_ifs with h1 h2
  · exact xPair_apply Wx _ _ _ _ _ q (pair6 0 1 q) (pair6_val 0 1 q)
  · exact hPair_apply Wh _ _ _ _ _ q (pair4 0 1 q) (pair4_val 0 1 q)
  · exact cPair_apply Wc _ _ _ _ _ q (pair2 0 1 q) (pair2_val 0 1 q)

/-- The stacked candidate/output operand: rows of `Wx`, then of `Wh`, at the candidate and output bands. -/
theorem Wko_host (k : Fin 1536) (q : Fin 2048) :
    stack2 (xPair Wx 4096 5120 slices_S512x6144_S512x1024_0_4096 slices_S512x6144_S512x1024_0_5120)
        (hPair Wh 2048 3072 slices_S1024x4096_S1024x1024_0_2048 slices_S1024x4096_S1024x1024_0_3072) (ValueIdx.ix2 k q)
      = (fuse (weightsOf Wx bx Wh Wc Wt Woc)).Wko k q := by
  rw [stack2_apply]
  dsimp only [fuse, weightsOf]
  split_ifs with h1
  · exact xPair_apply Wx _ _ _ _ _ q (pair6 4 5 q) (pair6_val 4 5 q)
  · exact hPair_apply Wh _ _ _ _ _ q (pair4 2 3 q) (pair4_val 2 3 q)

/-- The operands the launch finds, as composed from the arguments, are the cell's weights fused. -/
theorem fusedOf_host :
    fusedOf (biasPair bx 0 1024 slices_S6144_S1024_0 slices_S6144_S1024_1024)
      (biasPair bx 4096 5120 slices_S6144_S1024_4096 slices_S6144_S1024_5120)
      (biasPair bx 2048 3072 slices_S6144_S1024_2048 slices_S6144_S1024_3072)
      (truncf (F := Ideal) .bf16 (stack3
        (xPair Wx 0 1024 slices_S512x6144_S512x1024_0_0 slices_S512x6144_S512x1024_0_1024)
        (hPair Wh 0 1024 slices_S1024x4096_S1024x1024_0_0 slices_S1024x4096_S1024x1024_0_1024)
        (cPair Wc 0 1024 slices_S1024x2048_S1024x1024_0_0 slices_S1024x2048_S1024x1024_0_1024)) bitsLt_bf16_f32)
      (truncf (F := Ideal) .bf16 (stack2
        (xPair Wx 4096 5120 slices_S512x6144_S512x1024_0_4096 slices_S512x6144_S512x1024_0_5120)
        (hPair Wh 2048 3072 slices_S1024x4096_S1024x1024_0_2048 slices_S1024x4096_S1024x1024_0_3072)) bitsLt_bf16_f32)
      (truncf (F := Ideal) .bf16
        (xPair Wx 2048 3072 slices_S512x6144_S512x1024_0_2048 slices_S512x6144_S512x1024_0_3072) bitsLt_bf16_f32)
      (truncf (F := Ideal) .bf16 Wt bitsLt_bf16_f32)
      (truncf (F := Ideal) .bf16 Woc bitsLt_bf16_f32)
      = fuse (weightsOf Wx bx Wh Wc Wt Woc) := by
  refine fused_ext ?_ ?_ ?_ ?_ ?_ ?_ ?_ ?_
  · exact fun k q => Wif_host Wx bx Wh Wc Wt Woc k q
  · exact fun k q => Wko_host Wx bx Wh Wc Wt Woc k q
  · exact fun k q => xPair_apply Wx _ _ _ _ k q (pair6 2 3 q) (pair6_val 2 3 q)
  · exact fun k q => rfl
  · exact fun k q => rfl
  · exact fun q => biasPair_apply bx _ _ _ _ q (pair6 0 1 q) (pair6_val 0 1 q)
  · exact fun q => biasPair_apply bx _ _ _ _ q (pair6 4 5 q) (pair6_val 4 5 q)
  · exact fun q => biasPair_apply bx _ _ _ _ q (pair6 2 3 q) (pair6_val 2 3 q)

end Assemble

/-- At the launch's entry the resident operands are the cell's weights, fused as the kernel holds them. -/
theorem fused_at_entry (c : Dev nD) :
    fusedOf (V m c main_v32) (V m c main_v34) (V m c main_v36) (V m c main_v22) (V m c main_v26) (V m c main_v28)
        (V m c main_v29) (V m c main_v30)
      = Cert.TimeLstm.fuse (Cert.TimeLstm.weightsOf (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9))) := by
  rw [V_v32, V_v34, V_v36, V_v22, V_v26, V_v28, V_v29, V_v30]
  exact fusedOf_host _ _ _ _ _ _

end Cert.KernelIdeal.Hand

end
-- ==== Proof.CellFusedLaws.lean ====
/-
  The cell as the kernel arranges it computes the same two outputs as the cell itself.

  A contraction over a row laid out as consecutive pieces is the sum of the contractions over the
  pieces; a column of a 2048-wide pair of bands is a column of one of the two bands; the bias is added
  at a different place in a sum of four terms. Nothing else distinguishes the two arrangements.
-/
import proofs.«423095_j91027536871502_3_alg».proof.Proof.CellFused
import Mathlib.Algebra.BigOperators.Fin

noncomputable section

namespace Cert.TimeLstm

open Idealize.ShloMosaic

/-! ## Columns of a pair of bands -/

theorem pair6_lo (a b : Fin 6) (j : Fin 1024) : pair6 a b (lo j) = col6 a j := by
  unfold pair6 lo
  rw [dif_pos j.isLt]

theorem pair6_hi (a b : Fin 6) (j : Fin 1024) : pair6 a b (hi j) = col6 b j := by
  unfold pair6 hi
  rw [dif_neg (by simp)]
  congr 1
  apply Fin.ext
  simp

theorem pair4_lo (a b : Fin 4) (j : Fin 1024) : pair4 a b (lo j) = col4 a j := by
  unfold pair4 lo
  rw [dif_pos j.isLt]

theorem pair4_hi (a b : Fin 4) (j : Fin 1024) : pair4 a b (hi j) = col4 b j := by
  unfold pair4 hi
  rw [dif_neg (by simp)]
  congr 1
  apply Fin.ext
  simp

theorem pair2_lo (a b : Fin 2) (j : Fin 1024) : pair2 a b (lo j) = col2 a j := by
  unfold pair2 lo
  rw [dif_pos j.isLt]

theorem pair2_hi (a b : Fin 2) (j : Fin 1024) : pair2 a b (hi j) = col2 b j := by
  unfold pair2 hi
  rw [dif_neg (by simp)]
  congr 1
  apply Fin.ext
  simp

/-! ## A sum over a laid-out row splits into the sums over its pieces -/

theorem sum_split3 (f : Fin 2560 → EReal) :
    ∑ k, f k = ((∑ k : Fin 512, f ⟨k.val, by omega⟩) + ∑ k : Fin 1024, f ⟨512 + k.val, by omega⟩)
      + ∑ k : Fin 1024, f ⟨1536 + k.val, by omega⟩ := by
  have h := Fin.sum_univ_add (a := 512 + 1024) (b := 1024) f
  rw [Fin.sum_univ_add (a := 512) (b := 1024)] at h
  exact h

theorem sum_split2 (f : Fin 1536 → EReal) :
    ∑ k, f k = (∑ k : Fin 512, f ⟨k.val, by omega⟩) + ∑ k : Fin 1024, f ⟨512 + k.val, by omega⟩ := by
  exact Fin.sum_univ_add (a := 512) (b := 1024) f

/-! ## The contractions over the laid-out rows -/

theorem xhc_dot (W : Weights) (r : Row) (q : Fin 2048) :
    ∑ k : Fin 2560, xhc r k * (fuse W).Wif k q
      = ((∑ k : Fin 512, r.x k * W.Wx k (pair6 0 1 q)) + ∑ k : Fin 1024, r.h k * W.Wh k (pair4 0 1 q))
        + ∑ k : Fin 1024, r.c k * W.Wc k (pair2 0 1 q) := by
  rw [sum_split3]
  refine congrArg₂ (· + ·) (congrArg₂ (· + ·) ?_ ?_) ?_
  · refine Finset.sum_congr rfl fun k _ => ?_
    have hk : k.val < 512 := k.isLt
    simp only [xhc, fuse, dif_pos hk]
  · refine Finset.sum_congr rfl fun k _ => ?_
    have h1 : ¬ (512 + k.val < 512) := by omega
    have h2 : 512 + k.val < 1536 := by omega
    have e : (⟨512 + k.val - 512, by omega⟩ : Fin 1024) = k := Fin.ext (by simp)
    simp only [xhc, fuse, dif_neg h1, dif_pos h2, e]
  · refine Finset.sum_congr rfl fun k _ => ?_
    have h1 : ¬ (1536 + k.val < 512) := by omega
    have h2 : ¬ (1536 + k.val < 1536) := by omega
    have e : (⟨1536 + k.val - 1536, by omega⟩ : Fin 1024) = k := Fin.ext (by simp)
    simp only [xhc, fuse, dif_neg h1, dif_neg h2, e]

theorem xh_dot (W : Weights) (r : Row) (q : Fin 2048) :
    ∑ k : Fin 1536, xh r k * (fuse W).Wko k q
      = (∑ k : Fin 512, r.x k * W.Wx k (pair6 4 5 q)) + ∑ k : Fin 1024, r.h k * W.Wh k (pair4 2 3 q) := by
  rw [sum_split2]
  refine congrArg₂ (· + ·) ?_ ?_
  · refine Finset.sum_congr rfl fun k _ => ?_
    have hk : k.val < 512 := k.isLt
    simp only [xh, fuse, dif_pos hk]
  · refine Finset.sum_congr rfl fun k _ => ?_
    have h1 : ¬ (512 + k.val < 512) := by omega
    have e : (⟨512 + k.val - 512, by omega⟩ : Fin 1024) = k := Fin.ext (by simp)
    simp only [xh, fuse, dif_neg h1, e]

/-! ## The gates, one by one -/

theorem fI_eq (W : Weights) (r : Row) : fI (fuse W) r = gateI W r := by
  funext j
  unfold fI gateI ifRaw px ph pc
  rw [xhc_dot]
  show Ideal.logistic (_ + W.bx (pair6 0 1 (lo j))) = _
  rw [pair6_lo, pair4_lo, pair2_lo]
  congr 1
  ac_rfl

theorem fF_eq (W : Weights) (r : Row) : fF (fuse W) r = gateF W r := by
  funext j
  unfold fF gateF ifRaw px ph pc
  rw [xhc_dot]
  show Ideal.logistic (_ + W.bx (pair6 0 1 (hi j))) = _
  rw [pair6_hi, pair4_hi, pair2_hi]
  congr 1
  ac_rfl

theorem fK_eq (W : Weights) (r : Row) : fK (fuse W) r = cand W r := by
  funext j
  unfold fK cand koRaw px ph
  rw [xh_dot]
  show Ideal.tanh (_ + W.bx (pair6 4 5 (lo j))) = _
  rw [pair6_lo, pair4_lo]
  congr 1
  ac_rfl

theorem tAll_eq (W : Weights) (r : Row) (o : Fin 3) (j : Fin 1024) :
    tAll (fuse W) r (col3 o j) = pt W r o j := rfl

theorem fT1_eq (W : Weights) (r : Row) : fT1 (fuse W) r = time1 W r := by
  funext j
  unfold fT1 time1 t12Raw px
  rw [tAll_eq]
  show Ideal.logistic ((∑ k, r.x k * W.Wx k (pair6 2 3 (lo j))) + W.bx (pair6 2 3 (lo j)) + _) = _
  rw [pair6_lo]

theorem fT2_eq (W : Weights) (r : Row) : fT2 (fuse W) r = time2 W r := by
  funext j
  unfold fT2 time2 t12Raw px
  rw [tAll_eq]
  show Ideal.logistic ((∑ k, r.x k * W.Wx k (pair6 2 3 (hi j))) + W.bx (pair6 2 3 (hi j)) + _) = _
  rw [pair6_hi]

theorem fKeep_eq (W : Weights) (r : Row) : fKeep (fuse W) r = keep W r := by
  funext j
  unfold fKeep keep
  rw [fF_eq]

theorem fCurl_eq (W : Weights) (r : Row) : fCurl (fuse W) r = cCurl W r := by
  funext j
  unfold fCurl cCurl
  rw [fI_eq, fT1_eq, fK_eq, fKeep_eq]

theorem fused_cNext (W : Weights) (r : Row) (j : Fin 1024) : fCNext (fuse W) r j = cNext W r j := by
  unfold fCNext cNext
  rw [fI_eq, fT2_eq, fK_eq, fKeep_eq]

theorem fO_eq (W : Weights) (r : Row) : fO (fuse W) r = gateO W r := by
  funext j
  unfold fO gateO koRaw px ph
  rw [xh_dot, fCurl_eq, tAll_eq]
  show Ideal.logistic ((_ + W.bx (pair6 4 5 (hi j)) + _) + ∑ k, cCurl W r k * W.Woc k j) = _
  rw [pair6_hi, pair4_hi]
  congr 1
  ac_rfl

theorem fused_hNext (W : Weights) (r : Row) (j : Fin 1024) : fHNext (fuse W) r j = hNext W r j := by
  unfold fHNext hNext
  rw [fO_eq, fCurl_eq]

end Cert.TimeLstm

end
-- ==== Proof.KernelValue.lean ====
/-
  The two result arrays of the idealized kernel as whole-array functions of the arguments.

  Grid point `t` handles batch rows `256·t … 256·t + 255`: its input blocks are those rows of the four
  batch arrays and the whole of the eight resident operands, and the block it writes back is those rows of
  the result. Row `p` of the block is the fused cell on row `256·t + p` of the batch; the fused
  operands are the cell's weights re-laid by the host operations; and the fused cell is the cell. The 64
  blocks tile the 16384 rows, so the arrays end as the cell applied to every batch row.
-/
import proofs.«423095_j91027536871502_3_alg».proof.Proof.LaunchIdeal
import proofs.«423095_j91027536871502_3_alg».proof.Proof.KernelCell
import proofs.«423095_j91027536871502_3_alg».proof.Proof.HostWeights
import proofs.«423095_j91027536871502_3_alg».proof.Proof.CellFusedLaws
import proofs.«423095_j91027536871502_3_alg».proof.Proof.KernelOperands
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

variable (m : (ℓ : Loc nD τ sig) → Buf (Elt Ideal) ℓ) (ρ : Dev nD → PrngReg)

theorem hz : (![0, 0] : Fin 2 → Nat) = fun _ => 0 := funext fun a => by fin_cases a <;> rfl

/-- The cell's weights read off the argument arrays. -/
abbrev cellW (c : Dev nD) : Cert.TimeLstm.Weights := (Cert.TimeLstm.weightsOf (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

/-- The next hidden state of every batch row. -/
abbrev hArr (c : Dev nD) : S16384x1024.Idx → EReal := Cert.TimeLstm.hNextArr (m ((c.tc : Thread nD τ).loc main_arg0)) (m ((c.tc : Thread nD τ).loc main_arg1)) (m ((c.tc : Thread nD τ).loc main_arg2)) (m ((c.tc : Thread nD τ).loc main_arg3)) (cellW m c)
/-- The next cell state of every batch row. -/
abbrev cArr (c : Dev nD) : S16384x1024.Idx → EReal := Cert.TimeLstm.cNextArr (m ((c.tc : Thread nD τ).loc main_arg0)) (m ((c.tc : Thread nD τ).loc main_arg1)) (m ((c.tc : Thread nD τ).loc main_arg2)) (m ((c.tc : Thread nD τ).loc main_arg3)) (cellW m c)

/-! ## Where the blocks lie -/

/-- The batch windows (inputs 0–3, outputs 12 and 13) take block row `t` at point `t`, block column 0. -/
theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The resident windows take their one block at every point. -/
theorem idx_resident : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem t_lt (t : Fin cfg0.N) : t.val < 64 := Nat.lt_of_lt_of_eq t.isLt N_0

/-- Batch row `256·t + p`. -/
def rowIx (t : Fin cfg0.N) (p : Fin 256) : Fin 16384 := ⟨256 * t.val + p.val, by have := t_lt t; omega⟩

/-! ## The input blocks of a point -/

/-- Row `p` of input block 0 at point `t` is batch row `256·t + p` of its argument array. -/
theorem iblk_0_apply (c : Dev nD) (t : Fin cfg0.N) (p : Fin 256) (k : Fin 512) :
    (iblk m c 0 t : Vec Ideal S256x512 .f32) (ix2 p k) = m ((c.tc : Thread nD τ).loc main_arg0) (ix2 (rowIx t p) k) := by
  obtain ⟨e0a, e0b, e1a, e1b, e2a, e2b, e3a, e3b, e12a, e12b, e13a, e13b⟩ := idx_batch t
  unfold iblk
  rw [show V m c (Pipeline.arrRef spec0 0) = m ((c.tc : Thread nD τ).loc main_arg0) from V_main_arg0 m c]
  show m ((c.tc : Thread nD τ).loc main_arg0) (((cfg0.win 0).blk t).view.emb (ix2 p k)) = _
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 512 + 1 * k.val = k.val; omega

/-- Row `p` of input block 1 at point `t` is batch row `256·t + p` of its argument array. -/
theorem iblk_1_apply (c : Dev nD) (t : Fin cfg0.N) (p : Fin 256) (k : Fin 1024) :
    (iblk m c 1 t : Vec Ideal S256x1024 .f32) (ix2 p k) = m ((c.tc : Thread nD τ).loc main_arg1) (ix2 (rowIx t p) k) := by
  obtain ⟨e0a, e0b, e1a, e1b, e2a, e2b, e3a, e3b, e12a, e12b, e13a, e13b⟩ := idx_batch t
  unfold iblk
  rw [show V m c (Pipeline.arrRef spec0 1) = m ((c.tc : Thread nD τ).loc main_arg1) from V_main_arg1 m c]
  show m ((c.tc : Thread nD τ).loc main_arg1) (((cfg0.win 1).blk t).view.emb (ix2 p k)) = _
  refine congrArg _ ?_
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

/-- Row `p` of input block 2 at point `t` is batch row `256·t + p` of its argument array. -/
theorem iblk_2_apply (c : Dev nD) (t : Fin cfg0.N) (p : Fin 256) (k : Fin 1024) :
    (iblk m c 2 t : Vec Ideal S256x1024 .f32) (ix2 p k) = m ((c.tc : Thread nD τ).loc main_arg2) (ix2 (rowIx t p) k) := by
  obtain ⟨e0a, e0b, e1a, e1b, e2a, e2b, e3a, e3b, e12a, e12b, e13a, e13b⟩ := idx_batch t
  unfold iblk
  rw [show V m c (Pipeline.arrRef spec0 2) = m ((c.tc : Thread nD τ).loc main_arg2) from V_main_arg2 m c]
  show m ((c.tc : Thread nD τ).loc main_arg2) (((cfg0.win 2).blk t).view.emb (ix2 p k)) = _
  refine congrArg _ ?_
  funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-- Row `p` of input block 3 at point `t` is batch row `256·t + p` of its argument array. -/
theorem iblk_3_apply (c : Dev nD) (t : Fin cfg0.N) (p : Fin 256) (k : Fin 64) :
    (iblk m c 3 t : Vec Ideal S256x64 .f32) (ix2 p k) = m ((c.tc : Thread nD τ).loc main_arg3) (ix2 (rowIx t p) k) := by
  obtain ⟨e0a, e0b, e1a, e1b, e2a, e2b, e3a, e3b, e12a, e12b, e13a, e13b⟩ := idx_batch t
  unfold iblk
  rw [show V m c (Pipeline.arrRef spec0 3) = m ((c.tc : Thread nD τ).loc main_arg3) from V_main_arg3 m c]
  show m ((c.tc : Thread nD τ).loc main_arg3) (((cfg0.win 3).blk t).view.emb (ix2 p k)) = _
  refine congrArg _ ?_
  funext a; apply Fin.ext
  match a with
  | ⟨0, _⟩ => show win0_3.index t (0 : Fin 2) * 256 + 1 * p.val = 256 * t.val + p.val; omega
  | ⟨1, _⟩ => show win0_3.index t (1 : Fin 2) * 64 + 1 * k.val = k.val; omega

/-- Row `p` of a point's four input blocks is batch row `256·t + p`. -/
theorem blockRow_at (c : Dev nD) (t : Fin cfg0.N) (p : Fin 256) :
    blockRow (iblk m c 0 t) (iblk m c 1 t) (iblk m c 2 t) (iblk m c 3 t) p
      = Cert.TimeLstm.rowOf (m ((c.tc : Thread nD τ).loc main_arg0)) (m ((c.tc : Thread nD τ).loc main_arg1)) (m ((c.tc : Thread nD τ).loc main_arg2)) (m ((c.tc : Thread nD τ).loc main_arg3)) (rowIx t p) := by
  unfold blockRow Cert.TimeLstm.rowOf
  congr 1
  · funext k; exact iblk_0_apply m c t p k
  · funext k; exact iblk_1_apply m c t p k
  · funext k; exact iblk_2_apply m c t p k
  · funext k; exact iblk_3_apply m c t p k

/-- The resident operand 4 is found whole at every point. -/
theorem iblk_4_eq (c : Dev nD) (t : Fin cfg0.N) : (iblk m c 4 t : Vec Ideal S1x2048 .f32) = V m c main_v32 := by
  obtain ⟨e4a, e4b, e5a, e5b, e6a, e6b, e7a, e7b, e8a, e8b, e9a, e9b, e10a, e10b, e11a, e11b⟩ := idx_resident t
  unfold iblk
  funext j
  show V m c main_v32 (((cfg0.win 4).blk t).view.emb j) = V m c main_v32 j
  refine congrArg _ ?_
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega

/-- The resident operand 5 is found whole at every point. -/
theorem iblk_5_eq (c : Dev nD) (t : Fin cfg0.N) : (iblk m c 5 t : Vec Ideal S1x2048 .f32) = V m c main_v34 := by
  obtain ⟨e4a, e4b, e5a, e5b, e6a, e6b, e7a, e7b, e8a, e8b, e9a, e9b, e10a, e10b, e11a, e11b⟩ := idx_resident t
  unfold iblk
  funext j
  show V m c main_v34 (((cfg0.win 5).blk t).view.emb j) = V m c main_v34 j
  refine congrArg _ ?_
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega

/-- The resident operand 6 is found whole at every point. -/
theorem iblk_6_eq (c : Dev nD) (t : Fin cfg0.N) : (iblk m c 6 t : Vec Ideal S1x2048 .f32) = V m c main_v36 := by
  obtain ⟨e4a, e4b, e5a, e5b, e6a, e6b, e7a, e7b, e8a, e8b, e9a, e9b, e10a, e10b, e11a, e11b⟩ := idx_resident t
  unfold iblk
  funext j
  show V m c main_v36 (((cfg0.win 6).blk t).view.emb j) = V m c main_v36 j
  refine congrArg _ ?_
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega

/-- The resident operand 7 is found whole at every point. -/
theorem iblk_7_eq (c : Dev nD) (t : Fin cfg0.N) : (iblk m c 7 t : Vec Ideal S2560x2048 .bf16) = V m c main_v22 := by
  obtain ⟨e4a, e4b, e5a, e5b, e6a, e6b, e7a, e7b, e8a, e8b, e9a, e9b, e10a, e10b, e11a, e11b⟩ := idx_resident t
  unfold iblk
  funext j
  show V m c main_v22 (((cfg0.win 7).blk t).view.emb j) = V m c main_v22 j
  refine congrArg _ ?_
  funext a; apply Fin.ext
  match a with
  | ⟨0, _⟩ => show win0_7.index t (0 : Fin 2) * 2560 + 1 * (j 0).val = (j 0).val; omega
  | ⟨1, _⟩ => show win0_7.index t (1 : Fin 2) * 2048 + 1 * (j 1).val = (j 1).val; omega

/-- The resident operand 8 is found whole at every point. -/
theorem iblk_8_eq (c : Dev nD) (t : Fin cfg0.N) : (iblk m c 8 t : Vec Ideal S1536x2048 .bf16) = V m c main_v26 := by
  obtain ⟨e4a, e4b, e5a, e5b, e6a, e6b, e7a, e7b, e8a, e8b, e9a, e9b, e10a, e10b, e11a, e11b⟩ := idx_resident t
  unfold iblk
  funext j
  show V m c main_v26 (((cfg0.win 8).blk t).view.emb j) = V m c main_v26 j
  refine congrArg _ ?_
  funext a; apply Fin.ext
  match a with
  | ⟨0, _⟩ => show win0_8.index t (0 : Fin 2) * 1536 + 1 * (j 0).val = (j 0).val; omega
  | ⟨1, _⟩ => show win0_8.index t (1 : Fin 2) * 2048 + 1 * (j 1).val = (j 1).val; omega

/-- The resident operand 9 is found whole at every point. -/
theorem iblk_9_eq (c : Dev nD) (t : Fin cfg0.N) : (iblk m c 9 t : Vec Ideal S512x2048 .bf16) = V m c main_v28 := by
  obtain ⟨e4a, e4b, e5a, e5b, e6a, e6b, e7a, e7b, e8a, e8b, e9a, e9b, e10a, e10b, e11a, e11b⟩ := idx_resident t
  unfold iblk
  funext j
  show V m c main_v28 (((cfg0.win 9).blk t).view.emb j) = V m c main_v28 j
  refine congrArg _ ?_
  funext a; apply Fin.ext
  match a with
  | ⟨0, _⟩ => show win0_9.index t (0 : Fin 2) * 512 + 1 * (j 0).val = (j 0).val; omega
  | ⟨1, _⟩ => show win0_9.index t (1 : Fin 2) * 2048 + 1 * (j 1).val = (j 1).val; omega

/-- The resident operand 10 is found whole at every point. -/
theorem iblk_10_eq (c : Dev nD) (t : Fin cfg0.N) : (iblk m c 10 t : Vec Ideal S64x3072 .bf16) = V m c main_v29 := by
  obtain ⟨e4a, e4b, e5a, e5b, e6a, e6b, e7a, e7b, e8a, e8b, e9a, e9b, e10a, e10b, e11a, e11b⟩ := idx_resident t
  unfold iblk
  funext j
  show V m c main_v29 (((cfg0.win 10).blk t).view.emb j) = V m c main_v29 j
  refine congrArg _ ?_
  funext a; apply Fin.ext
  match a with
  | ⟨0, _⟩ => show win0_10.index t (0 : Fin 2) * 64 + 1 * (j 0).val = (j 0).val; omega
  | ⟨1, _⟩ => show win0_10.index t (1 : Fin 2) * 3072 + 1 * (j 1).val = (j 1).val; omega

/-- The resident operand 11 is found whole at every point. -/
theorem iblk_11_eq (c : Dev nD) (t : Fin cfg0.N) : (iblk m c 11 t : Vec Ideal S1024x1024 .bf16) = V m c main_v30 := by
  obtain ⟨e4a, e4b, e5a, e5b, e6a, e6b, e7a, e7b, e8a, e8b, e9a, e9b, e10a, e10b, e11a, e11b⟩ := idx_resident t
  unfold iblk
  funext j
  show V m c main_v30 (((cfg0.win 11).blk t).view.emb j) = V m c main_v30 j
  refine congrArg _ ?_
  funext a; apply Fin.ext
  match a with
  | ⟨0, _⟩ => show win0_11.index t (0 : Fin 2) * 1024 + 1 * (j 0).val = (j 0).val; omega
  | ⟨1, _⟩ => show win0_11.index t (1 : Fin 2) * 1024 + 1 * (j 1).val = (j 1).val; omega

/-- The fused operands a point sees are the cell's weights, re-laid. -/
theorem fused_at (c : Dev nD) (t : Fin cfg0.N) :
    fusedOf (iblk m c 4 t) (iblk m c 5 t) (iblk m c 6 t) (iblk m c 7 t) (iblk m c 8 t) (iblk m c 9 t) (iblk m c 10 t) (iblk m c 11 t)
      = Cert.TimeLstm.fuse (cellW m c) := by
  rw [show (iblk m c 4 t : Vec Ideal S1x2048 .f32) = V m c main_v32 from iblk_4_eq m c t,
    show (iblk m c 5 t : Vec Ideal S1x2048 .f32) = V m c main_v34 from iblk_5_eq m c t,
    show (iblk m c 6 t : Vec Ideal S1x2048 .f32) = V m c main_v36 from iblk_6_eq m c t,
    show (iblk m c 7 t : Vec Ideal S2560x2048 .bf16) = V m c main_v22 from iblk_7_eq m c t,
    show (iblk m c 8 t : Vec Ideal S1536x2048 .bf16) = V m c main_v26 from iblk_8_eq m c t,
    show (iblk m c 9 t : Vec Ideal S512x2048 .bf16) = V m c main_v28 from iblk_9_eq m c t,
    show (iblk m c 10 t : Vec Ideal S64x3072 .bf16) = V m c main_v29 from iblk_10_eq m c t,
    show (iblk m c 11 t : Vec Ideal S1024x1024 .bf16) = V m c main_v30 from iblk_11_eq m c t]
  exact fused_at_entry m c

/-! ## What a point writes back -/

/-- Point `t` writes back block `t` of the array: its rows are the cell on batch rows `256·t + p`. -/
theorem flushed12_eq (c : Dev nD) (t : Fin cfg0.N) :
    (dats m 0 c).flushed 12 t = ((cfg0.win 12).blk t).view.read (Elt Ideal) (hArr m c) := by
  obtain ⟨e0a, e0b, e1a, e1b, e2a, e2b, e3a, e3b, e12a, e12b, e13a, e13b⟩ := idx_batch t
  show (cfg0.win 12).cut (grid0.coords t) ((dats m 0 c).after 12 t) = _
  rw [after_12]
  unfold out_12
  rw [View.canon_unit_zero hz]
  simp only [View.ld_unit_zero (S := S256x512) hz, View.ld_unit_zero (S := S256x1024) hz, View.ld_unit_zero (S := S256x64) hz, View.ld_unit_zero (S := S1x2048) hz, View.ld_unit_zero (S := S2560x2048) hz, View.ld_unit_zero (S := S1536x2048) hz, View.ld_unit_zero (S := S512x2048) hz, View.ld_unit_zero (S := S64x3072) hz, View.ld_unit_zero (S := S1024x1024) hz]
  funext j
  obtain ⟨p, q, rfl⟩ : ∃ (p : Fin 256) (q : Fin 1024), j = ix2 p q := ⟨j 0, j 1, eq_ix2 j⟩
  show _ = hArr m c (((cfg0.win 12).blk t).view.emb (ix2 p q))
  have hemb : ((cfg0.win 12).blk t).view.emb (ix2 p q) = ix2 (rowIx t p) q := by
    funext a; apply Fin.ext
    match a with
    | ⟨0, _⟩ => show win0_12.index t (0 : Fin 2) * 256 + 1 * p.val = 256 * t.val + p.val; omega
    | ⟨1, _⟩ => show win0_12.index t (1 : Fin 2) * 1024 + 1 * q.val = q.val; omega
  rw [hemb]
  refine (hPayload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  rw [fused_at m c t, blockRow_at m c t p, Cert.TimeLstm.fused_hNext]
  rfl

/-- Point `t` writes back block `t` of the array: its rows are the cell on batch rows `256·t + p`. -/
theorem flushed13_eq (c : Dev nD) (t : Fin cfg0.N) :
    (dats m 0 c).flushed 13 t = ((cfg0.win 13).blk t).view.read (Elt Ideal) (cArr m c) := by
  obtain ⟨e0a, e0b, e1a, e1b, e2a, e2b, e3a, e3b, e12a, e12b, e13a, e13b⟩ := idx_batch t
  show (cfg0.win 13).cut (grid0.coords t) ((dats m 0 c).after 13 t) = _
  rw [after_13]
  unfold out_13
  rw [View.canon_unit_zero hz]
  simp only [View.ld_unit_zero (S := S256x512) hz, View.ld_unit_zero (S := S256x1024) hz, View.ld_unit_zero (S := S256x64) hz, View.ld_unit_zero (S := S1x2048) hz, View.ld_unit_zero (S := S2560x2048) hz, View.ld_unit_zero (S := S1536x2048) hz, View.ld_unit_zero (S := S512x2048) hz, View.ld_unit_zero (S := S64x3072) hz, View.ld_unit_zero (S := S1024x1024) hz]
  funext j
  obtain ⟨p, q, rfl⟩ : ∃ (p : Fin 256) (q : Fin 1024), j = ix2 p q := ⟨j 0, j 1, eq_ix2 j⟩
  show _ = cArr m c (((cfg0.win 13).blk t).view.emb (ix2 p q))
  have hemb : ((cfg0.win 13).blk t).view.emb (ix2 p q) = ix2 (rowIx t p) q := by
    funext a; apply Fin.ext
    match a with
    | ⟨0, _⟩ => show win0_13.index t (0 : Fin 2) * 256 + 1 * p.val = 256 * t.val + p.val; omega
    | ⟨1, _⟩ => show win0_13.index t (1 : Fin 2) * 1024 + 1 * q.val = q.val; omega
  rw [hemb]
  refine (cPayload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  rw [fused_at m c t, blockRow_at m c t p, Cert.TimeLstm.fused_cNext]
  rfl

/-! ## The blocks tile the array -/

/-- An index of the array is in point `t`'s block iff each coordinate is in the block's range. -/
theorem mem_blk12 (t : Fin cfg0.N) (i : S16384x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v37_0).slice (win0_12.rect t)).set ↔ _
  rw [View.set_slice_whole, Rect.mem_set_unit]
  exact Iff.rfl

/-- Every index lies in the block of the point its batch row belongs to. -/
theorem cover12 (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨e0a, e0b, e1a, e1b, e2a, e2b, e3a, e3b, e12a, e12b, e13a, e13b⟩ := idx_batch t
  have ht : t.val = (i 0).val / 256 := rfl
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

/-- An index of the array is in point `t`'s block iff each coordinate is in the block's range. -/
theorem mem_blk13 (t : Fin cfg0.N) (i : S16384x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v37_1).slice (win0_13.rect t)).set ↔ _
  rw [View.set_slice_whole, Rect.mem_set_unit]
  exact Iff.rfl

/-- Every index lies in the block of the point its batch row belongs to. -/
theorem cover13 (i : S16384x1024.Idx) :
    ∃ t : Fin cfg0.N, (cfg0.win 13).flush t = true ∧ i ∈ ((cfg0.win 13).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨e0a, e0b, e1a, e1b, e2a, e2b, e3a, e3b, e12a, e12b, e13a, e13b⟩ := idx_batch t
  have ht : t.val = (i 0).val / 256 := rfl
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- The next hidden states' array after the run. -/
theorem final12 (c : Dev nD) : (dats m 0 c).arrAt 12 cfg0.N = hArr m c :=
  (dats m 0 c).arrAt_eq_of_cover 12 (hArr m c) (fun t _ => flushed12_eq m c t) cover12

/-- The next cell states' array after the run. -/
theorem final13 (c : Dev nD) : (dats m 0 c).arrAt 13 cfg0.N = cArr m c :=
  (dats m 0 c).arrAt_eq_of_cover 13 (cArr m c) (fun t _ => flushed13_eq m c t) cover13

/-! ## The run, read -/

/-- Every weakly fair execution terminates with the two results at the cell of every batch row and the
    arguments unchanged. -/
theorem run_value : θ_run defs (onTc (τ := τ) (main (F := Ideal))) ⟨m, fun _ => 0, ρ⟩ fun r => ∀ c : Dev nD,
      r.2.mem ((c.tc : Thread nD τ).loc main_v37_0) = hArr m c
      ∧ r.2.mem ((c.tc : Thread nD τ).loc main_v37_1) = cArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 12).trans (final12 m c), ((h c).1 13).trans (final13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Hand

end
-- ==== Proof.RefCell.lean ====
/-
  The reference program computes the time-gated cell: its next hidden state and its next cell state,
  read one element at a time, are the cell's functions of the batch row and the weights.
-/
import proofs.«423095_j91027536871502_3_alg».proof.Proof.Gen.ReferenceIdeal.Read
import proofs.«423095_j91027536871502_3_alg».proof.Proof.Cell

noncomputable section

namespace Cert.ReferenceIdeal.RefValue

open Cert.ReferenceIdeal Cert.ReferenceIdeal.Gen Idealize.ShloMosaic
open Cert.ReferenceIdeal.Read Cert.TimeLstm

/-- The literal 1.0 is the extended real 1. -/
theorem one_f32 : Ideal.ofBits .f32 0x3F800000#32 = (1 : EReal) := by
  simp [Ideal.ofBits, Ideal.ieee, -EReal.coe_mul]; norm_num

/-- The reference's spelling of the sigmoid, with the literal 1.0 twice, is the logistic function. -/
theorem sig_eq (z : EReal) :
    Ideal.div (Ideal.ofBits .f32 0x3F800000#32) (Ideal.ofBits .f32 0x3F800000#32 + Ideal.exp (-z)) = Ideal.logistic z := by
  rw [one_f32]; rfl

/-- Two rank-2 indices with the same coordinates are equal. -/
theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

section
variable (x0 : (⟨S16384x512, .f32⟩ : BufTy).Contents (Elt Ideal)) (x1 x2 : (⟨S16384x1024, .f32⟩ : BufTy).Contents (Elt Ideal))
  (x3 : (⟨S16384x64, .f32⟩ : BufTy).Contents (Elt Ideal)) (x4 : (⟨S512x6144, .f32⟩ : BufTy).Contents (Elt Ideal))
  (x5 : (⟨S6144, .f32⟩ : BufTy).Contents (Elt Ideal)) (x6 : (⟨S1024x4096, .f32⟩ : BufTy).Contents (Elt Ideal))
  (x7 : (⟨S1024x2048, .f32⟩ : BufTy).Contents (Elt Ideal)) (x8 : (⟨S64x3072, .f32⟩ : BufTy).Contents (Elt Ideal))
  (x9 : (⟨S1024x1024, .f32⟩ : BufTy).Contents (Elt Ideal))

/-! ## The four projections, at a row and a column -/

/-- Two rank-1 indices with the same coordinate are equal. -/
theorem idx1_ext {n : Nat} (i j : (⟨1, ![n]⟩ : Shape).Idx) (h0 : (i 0).val = (j 0).val) : i = j := by
  funext a
  match a with
  | ⟨0, _⟩ => exact Fin.ext h0

/-- x · Wx + bx at row p, column c. -/
theorem v3_at (p : Fin 16384) (c : Fin 6144) :
    val_main_v3 (F := Ideal) x0 x4 x5 (ValueIdx.ix2 p c)
      = (∑ k : Fin 512, x0 (ValueIdx.ix2 p k) * x4 (ValueIdx.ix2 k c)) + x5 (ValueIdx.ix1 c) := by
  rw [val_main_v3_apply, val_main_v0_apply, val_main_v2_apply, val_main_v1_apply]
  have e1 : ∀ k, lidx_main_v0 (ValueIdx.ix2 p c) k = ValueIdx.ix2 p k := fun k => idx2_ext _ _ rfl rfl
  have e2 : ∀ k, ridx_main_v0 (ValueIdx.ix2 p c) k = ValueIdx.ix2 k c := fun k => idx2_ext _ _ rfl rfl
  have e3 : idx_main_v1 (idx_main_v2 (ValueIdx.ix2 p c)) = ValueIdx.ix1 c := idx1_ext _ _ rfl
  simp only [e1, e2, e3]
  rfl

/-- h · Wh at row p, column c. -/
theorem v10_at (p : Fin 16384) (c : Fin 4096) :
    val_main_v10 (F := Ideal) x1 x6 (ValueIdx.ix2 p c)
      = ∑ k : Fin 1024, x1 (ValueIdx.ix2 p k) * x6 (ValueIdx.ix2 k c) := by
  rw [val_main_v10_apply]
  have e1 : ∀ k, lidx_main_v10 (ValueIdx.ix2 p c) k = ValueIdx.ix2 p k := fun k => idx2_ext _ _ rfl rfl
  have e2 : ∀ k, ridx_main_v10 (ValueIdx.ix2 p c) k = ValueIdx.ix2 k c := fun k => idx2_ext _ _ rfl rfl
  simp only [e1, e2]

/-- c · Wc at row p, column c. -/
theorem v15_at (p : Fin 16384) (c : Fin 2048) :
    val_main_v15 (F := Ideal) x2 x7 (ValueIdx.ix2 p c)
      = ∑ k : Fin 1024, x2 (ValueIdx.ix2 p k) * x7 (ValueIdx.ix2 k c) := by
  rw [val_main_v15_apply]
  have e1 : ∀ k, lidx_main_v15 (ValueIdx.ix2 p c) k = ValueIdx.ix2 p k := fun k => idx2_ext _ _ rfl rfl
  have e2 : ∀ k, ridx_main_v15 (ValueIdx.ix2 p c) k = ValueIdx.ix2 k c := fun k => idx2_ext _ _ rfl rfl
  simp only [e1, e2]

/-- d · Wt at row p, column c. -/
theorem v18_at (p : Fin 16384) (c : Fin 3072) :
    val_main_v18 (F := Ideal) x3 x8 (ValueIdx.ix2 p c)
      = ∑ k : Fin 64, x3 (ValueIdx.ix2 p k) * x8 (ValueIdx.ix2 k c) := by
  rw [val_main_v18_apply]
  have e1 : ∀ k, lidx_main_v18 (ValueIdx.ix2 p c) k = ValueIdx.ix2 p k := fun k => idx2_ext _ _ rfl rfl
  have e2 : ∀ k, ridx_main_v18 (ValueIdx.ix2 p c) k = ValueIdx.ix2 k c := fun k => idx2_ext _ _ rfl rfl
  simp only [e1, e2]

/-! ## The bands -/

/-- Band 0 of x · Wx + bx (the input band). -/
theorem v4_at (p : Fin 16384) (q : Fin 1024) :
    val_main_v4 (F := Ideal) x0 x4 x5 (ValueIdx.ix2 p q) = px (weightsOf x4 x5 x6 x7 x8 x9) (rowOf x0 x1 x2 x3 p) 0 q := by
  rw [val_main_v4_apply]
  have e : idx_main_v4 (ValueIdx.ix2 p q) = ValueIdx.ix2 p (col6 0 q) :=
    idx2_ext _ _ rfl (by show q.val = 1024 * 0 + q.val; omega)
  rw [e, v3_at]
  rfl

/-- Band 1 of x · Wx + bx (the forget band). -/
theorem v5_at (p : Fin 16384) (q : Fin 1024) :
    val_main_v5 (F := Ideal) x0 x4 x5 (ValueIdx.ix2 p q) = px (weightsOf x4 x5 x6 x7 x8 x9) (rowOf x0 x1 x2 x3 p) 1 q := by
  rw [val_main_v5_apply]
  have e : idx_main_v5 (ValueIdx.ix2 p q) = ValueIdx.ix2 p (col6 1 q) :=
    idx2_ext _ _ rfl (by show 1024 + q.val = 1024 * 1 + q.val; omega)
  rw [e, v3_at]
  rfl

/-- Band 2 of x · Wx + bx (the first time band). -/
theorem v6_at (p : Fin 16384) (q : Fin 1024) :
    val_main_v6 (F := Ideal) x0 x4 x5 (ValueIdx.ix2 p q) = px (weightsOf x4 x5 x6 x7 x8 x9) (rowOf x0 x1 x2 x3 p) 2 q := by
  rw [val_main_v6_apply]
  have e : idx_main_v6 (ValueIdx.ix2 p q) = ValueIdx.ix2 p (col6 2 q) :=
    idx2_ext _ _ rfl (by show 2048 + q.val = 1024 * 2 + q.val; omega)
  rw [e, v3_at]
  rfl

/-- Band 3 of x · Wx + bx (the second time band). -/
theorem v7_at (p : Fin 16384) (q : Fin 1024) :
    val_main_v7 (F := Ideal) x0 x4 x5 (ValueIdx.ix2 p q) = px (weightsOf x4 x5 x6 x7 x8 x9) (rowOf x0 x1 x2 x3 p) 3 q := by
  rw [val_main_v7_apply]
  have e : idx_main_v7 (ValueIdx.ix2 p q) = ValueIdx.ix2 p (col6 3 q) :=
    idx2_ext _ _ rfl (by show 3072 + q.val = 1024 * 3 + q.val; omega)
  rw [e, v3_at]
  rfl

/-- Band 4 of x · Wx + bx (the candidate band). -/
theorem v8_at (p : Fin 16384) (q : Fin 1024) :
    val_main_v8 (F := Ideal) x0 x4 x5 (ValueIdx.ix2 p q) = px (weightsOf x4 x5 x6 x7 x8 x9) (rowOf x0 x1 x2 x3 p) 4 q := by
  rw [val_main_v8_apply]
  have e : idx_main_v8 (ValueIdx.ix2 p q) = ValueIdx.ix2 p (col6 4 q) :=
    idx2_ext _ _ rfl (by show 4096 + q.val = 1024 * 4 + q.val; omega)
  rw [e, v3_at]
  rfl

/-- Band 5 of x · Wx + bx (the output band). -/
theorem v9_at (p : Fin 16384) (q : Fin 1024) :
    val_main_v9 (F := Ideal) x0 x4 x5 (ValueIdx.ix2 p q) = px (weightsOf x4 x5 x6 x7 x8 x9) (rowOf x0 x1 x2 x3 p) 5 q := by
  rw [val_main_v9_apply]
  have e : idx_main_v9 (ValueIdx.ix2 p q) = ValueIdx.ix2 p (col6 5 q) :=
    idx2_ext _ _ rfl (by show 5120 + q.val = 1024 * 5 + q.val; omega)
  rw [e, v3_at]
  rfl

/-- Band 0 of h · Wh (the input band). -/
theorem v11_at (p : Fin 16384) (q : Fin 1024) :
    val_main_v11 (F := Ideal) x1 x6 (ValueIdx.ix2 p q) = ph (weightsOf x4 x5 x6 x7 x8 x9) (rowOf x0 x1 x2 x3 p) 0 q := by
  rw [val_main_v11_apply]
  have e : idx_main_v11 (ValueIdx.ix2 p q) = ValueIdx.ix2 p (col4 0 q) :=
    idx2_ext _ _ rfl (by show q.val = 1024 * 0 + q.val; omega)
  rw [e, v10_at]
  rfl

/-- Band 1 of h · Wh (the forget band). -/
theorem v12_at (p : Fin 16384) (q : Fin 1024) :
    val_main_v12 (F := Ideal) x1 x6 (ValueIdx.ix2 p q) = ph (weightsOf x4 x5 x6 x7 x8 x9) (rowOf x0 x1 x2 x3 p) 1 q := by
  rw [val_main_v12_apply]
  have e : idx_main_v12 (ValueIdx.ix2 p q) = ValueIdx.ix2 p (col4 1 q) :=
    idx2_ext _ _ rfl (by show 1024 + q.val = 1024 * 1 + q.val; omega)
  rw [e, v10_at]
  rfl

/-- Band 2 of h · Wh (the candidate band). -/
theorem v13_at (p : Fin 16384) (q : Fin 1024) :
    val_main_v13 (F := Ideal) x1 x6 (ValueIdx.ix2 p q) = ph (weightsOf x4 x5 x6 x7 x8 x9) (rowOf x0 x1 x2 x3 p) 2 q := by
  rw [val_main_v13_apply]
  have e : idx_main_v13 (ValueIdx.ix2 p q) = ValueIdx.ix2 p (col4 2 q) :=
    idx2_ext _ _ rfl (by show 2048 + q.val = 1024 * 2 + q.val; omega)
  rw [e, v10_at]
  rfl

/-- Band 3 of h · Wh (the output band). -/
theorem v14_at (p : Fin 16384) (q : Fin 1024) :
    val_main_v14 (F := Ideal) x1 x6 (ValueIdx.ix2 p q) = ph (weightsOf x4 x5 x6 x7 x8 x9) (rowOf x0 x1 x2 x3 p) 3 q := by
  rw [val_main_v14_apply]
  have e : idx_main_v14 (ValueIdx.ix2 p q) = ValueIdx.ix2 p (col4 3 q) :=
    idx2_ext _ _ rfl (by show 3072 + q.val = 1024 * 3 + q.val; omega)
  rw [e, v10_at]
  rfl

/-- Band 0 of c · Wc (the input band). -/
theorem v16_at (p : Fin 16384) (q : Fin 1024) :
    val_main_v16 (F := Ideal) x2 x7 (ValueIdx.ix2 p q) = pc (weightsOf x4 x5 x6 x7 x8 x9) (rowOf x0 x1 x2 x3 p) 0 q := by
  rw [val_main_v16_apply]
  have e : idx_main_v16 (ValueIdx.ix2 p q) = ValueIdx.ix2 p (col2 0 q) :=
    idx2_ext _ _ rfl (by show q.val = 1024 * 0 + q.val; omega)
  rw [e, v15_at]
  rfl

/-- Band 1 of c · Wc (the forget band). -/
theorem v17_at (p : Fin 16384) (q : Fin 1024) :
    val_main_v17 (F := Ideal) x2 x7 (ValueIdx.ix2 p q) = pc (weightsOf x4 x5 x6 x7 x8 x9) (rowOf x0 x1 x2 x3 p) 1 q := by
  rw [val_main_v17_apply]
  have e : idx_main_v17 (ValueIdx.ix2 p q) = ValueIdx.ix2 p (col2 1 q) :=
    idx2_ext _ _ rfl (by show 1024 + q.val = 1024 * 1 + q.val; omega)
  rw [e, v15_at]
  rfl

/-- Band 0 of d · Wt (the first time band). -/
theorem v19_at (p : Fin 16384) (q : Fin 1024) :
    val_main_v19 (F := Ideal) x3 x8 (ValueIdx.ix2 p q) = pt (weightsOf x4 x5 x6 x7 x8 x9) (rowOf x0 x1 x2 x3 p) 0 q := by
  rw [val_main_v19_apply]
  have e : idx_main_v19 (ValueIdx.ix2 p q) = ValueIdx.ix2 p (col3 0 q) :=
    idx2_ext _ _ rfl (by show q.val = 1024 * 0 + q.val; omega)
  rw [e, v18_at]
  rfl

/-- Band 1 of d · Wt (the second time band). -/
theorem v20_at (p : Fin 16384) (q : Fin 1024) :
    val_main_v20 (F := Ideal) x3 x8 (ValueIdx.ix2 p q) = pt (weightsOf x4 x5 x6 x7 x8 x9) (rowOf x0 x1 x2 x3 p) 1 q := by
  rw [val_main_v20_apply]
  have e : idx_main_v20 (ValueIdx.ix2 p q) = ValueIdx.ix2 p (col3 1 q) :=
    idx2_ext _ _ rfl (by show 1024 + q.val = 1024 * 1 + q.val; omega)
  rw [e, v18_at]
  rfl

/-- Band 2 of d · Wt (the output band). -/
theorem v21_at (p : Fin 16384) (q : Fin 1024) :
    val_main_v21 (F := Ideal) x3 x8 (ValueIdx.ix2 p q) = pt (weightsOf x4 x5 x6 x7 x8 x9) (rowOf x0 x1 x2 x3 p) 2 q := by
  rw [val_main_v21_apply]
  have e : idx_main_v21 (ValueIdx.ix2 p q) = ValueIdx.ix2 p (col3 2 q) :=
    idx2_ext _ _ rfl (by show 2048 + q.val = 1024 * 2 + q.val; omega)
  rw [e, v18_at]
  rfl

/-! ## The gates -/

/-- The input gate. -/
theorem v29_at (p : Fin 16384) (q : Fin 1024) :
    val_main_v29 (F := Ideal) x0 x1 x2 x4 x5 x6 x7 (ValueIdx.ix2 p q) = gateI (weightsOf x4 x5 x6 x7 x8 x9) (rowOf x0 x1 x2 x3 p) q := by
  rw [val_main_v29_apply, val_main_v28_apply, val_main_cst_0_apply, val_main_v27_apply, val_main_v26_apply,
    val_main_cst_apply, val_main_v25_apply, val_main_v24_apply, val_main_v23_apply, val_main_v22_apply,
    v4_at x0 x1 x2 x3 x4 x5 x6 x7 x8 x9, v11_at x0 x1 x2 x3 x4 x5 x6 x7 x8 x9, v16_at x0 x1 x2 x3 x4 x5 x6 x7 x8 x9]
  exact sig_eq _

/-- The forget gate. -/
theorem v37_at (p : Fin 16384) (q : Fin 1024) :
    val_main_v37 (F := Ideal) x0 x1 x2 x4 x5 x6 x7 (ValueIdx.ix2 p q) = gateF (weightsOf x4 x5 x6 x7 x8 x9) (rowOf x0 x1 x2 x3 p) q := by
  rw [val_main_v37_apply, val_main_v36_apply, val_main_cst_2_apply, val_main_v35_apply, val_main_v34_apply,
    val_main_cst_1_apply, val_main_v33_apply, val_main_v32_apply, val_main_v31_apply, val_main_v30_apply,
    v5_at x0 x1 x2 x3 x4 x5 x6 x7 x8 x9, v12_at x0 x1 x2 x3 x4 x5 x6 x7 x8 x9, v17_at x0 x1 x2 x3 x4 x5 x6 x7 x8 x9]
  exact sig_eq _

/-- The sigmoid of the first time projection. -/
theorem v43_at (p : Fin 16384) (q : Fin 1024) :
    val_main_v43 (F := Ideal) x3 x8 (ValueIdx.ix2 p q) = Ideal.logistic (pt (weightsOf x4 x5 x6 x7 x8 x9) (rowOf x0 x1 x2 x3 p) 0 q) := by
  rw [val_main_v43_apply, val_main_v42_apply, val_main_cst_4_apply, val_main_v41_apply, val_main_v40_apply,
    val_main_cst_3_apply, val_main_v39_apply, val_main_v38_apply, v19_at x0 x1 x2 x3 x4 x5 x6 x7 x8 x9]
  exact sig_eq _

/-- The first time gate. -/
theorem v50_at (p : Fin 16384) (q : Fin 1024) :
    val_main_v50 (F := Ideal) x0 x3 x4 x5 x8 (ValueIdx.ix2 p q) = time1 (weightsOf x4 x5 x6 x7 x8 x9) (rowOf x0 x1 x2 x3 p) q := by
  rw [val_main_v50_apply, val_main_v49_apply, val_main_cst_6_apply, val_main_v48_apply, val_main_v47_apply,
    val_main_cst_5_apply, val_main_v46_apply, val_main_v45_apply, val_main_v44_apply,
    v6_at x0 x1 x2 x3 x4 x5 x6 x7 x8 x9, v43_at x0 x1 x2 x3 x4 x5 x6 x7 x8 x9]
  exact sig_eq _

/-- The sigmoid of the second time projection. -/
theorem v56_at (p : Fin 16384) (q : Fin 1024) :
    val_main_v56 (F := Ideal) x3 x8 (ValueIdx.ix2 p q) = Ideal.logistic (pt (weightsOf x4 x5 x6 x7 x8 x9) (rowOf x0 x1 x2 x3 p) 1 q) := by
  rw [val_main_v56_apply, val_main_v55_apply, val_main_cst_8_apply, val_main_v54_apply, val_main_v53_apply,
    val_main_cst_7_apply, val_main_v52_apply, val_main_v51_apply, v20_at x0 x1 x2 x3 x4 x5 x6 x7 x8 x9]
  exact sig_eq _

/-- The second time gate. -/
theorem v63_at (p : Fin 16384) (q : Fin 1024) :
    val_main_v63 (F := Ideal) x0 x3 x4 x5 x8 (ValueIdx.ix2 p q) = time2 (weightsOf x4 x5 x6 x7 x8 x9) (rowOf x0 x1 x2 x3 p) q := by
  rw [val_main_v63_apply, val_main_v62_apply, val_main_cst_10_apply, val_main_v61_apply, val_main_v60_apply,
    val_main_cst_9_apply, val_main_v59_apply, val_main_v58_apply, val_main_v57_apply,
    v7_at x0 x1 x2 x3 x4 x5 x6 x7 x8 x9, v56_at x0 x1 x2 x3 x4 x5 x6 x7 x8 x9]
  exact sig_eq _

/-- The cell candidate. -/
theorem v65_at (p : Fin 16384) (q : Fin 1024) :
    val_main_v65 (F := Ideal) x0 x1 x4 x5 x6 (ValueIdx.ix2 p q) = cand (weightsOf x4 x5 x6 x7 x8 x9) (rowOf x0 x1 x2 x3 p) q := by
  rw [val_main_v65_apply, val_main_v64_apply, v8_at x0 x1 x2 x3 x4 x5 x6 x7 x8 x9, v13_at x0 x1 x2 x3 x4 x5 x6 x7 x8 x9]
  rfl

/-- What the forget gate keeps of the previous cell state. -/
theorem v66_at (p : Fin 16384) (q : Fin 1024) :
    val_main_v66 (F := Ideal) x0 x1 x2 x4 x5 x6 x7 (ValueIdx.ix2 p q) = keep (weightsOf x4 x5 x6 x7 x8 x9) (rowOf x0 x1 x2 x3 p) q := by
  rw [val_main_v66_apply, v37_at x0 x1 x2 x3 x4 x5 x6 x7 x8 x9]
  rfl

/-- The intermediate cell state. -/
theorem v69_at (p : Fin 16384) (q : Fin 1024) :
    val_main_v69 (F := Ideal) x0 x1 x2 x3 x4 x5 x6 x7 x8 (ValueIdx.ix2 p q) = cCurl (weightsOf x4 x5 x6 x7 x8 x9) (rowOf x0 x1 x2 x3 p) q := by
  rw [val_main_v69_apply, val_main_v68_apply, val_main_v67_apply, v29_at x0 x1 x2 x3 x4 x5 x6 x7 x8 x9, v50_at x0 x1 x2 x3 x4 x5 x6 x7 x8 x9, v65_at x0 x1 x2 x3 x4 x5 x6 x7 x8 x9, v66_at x0 x1 x2 x3 x4 x5 x6 x7 x8 x9]
  rfl

/-- The next cell state. -/
theorem v72_at (p : Fin 16384) (q : Fin 1024) :
    val_main_v72 (F := Ideal) x0 x1 x2 x3 x4 x5 x6 x7 x8 (ValueIdx.ix2 p q) = cNext (weightsOf x4 x5 x6 x7 x8 x9) (rowOf x0 x1 x2 x3 p) q := by
  rw [val_main_v72_apply, val_main_v71_apply, val_main_v70_apply, v29_at x0 x1 x2 x3 x4 x5 x6 x7 x8 x9, v63_at x0 x1 x2 x3 x4 x5 x6 x7 x8 x9, v65_at x0 x1 x2 x3 x4 x5 x6 x7 x8 x9, v66_at x0 x1 x2 x3 x4 x5 x6 x7 x8 x9]
  rfl

/-- The intermediate cell state contracted with Woc. -/
theorem v75_at (p : Fin 16384) (q : Fin 1024) :
    val_main_v75 (F := Ideal) x0 x1 x2 x3 x4 x5 x6 x7 x8 x9 (ValueIdx.ix2 p q) = ∑ k : Fin 1024, cCurl (weightsOf x4 x5 x6 x7 x8 x9) (rowOf x0 x1 x2 x3 p) k * (weightsOf x4 x5 x6 x7 x8 x9).Woc k q := by
  rw [val_main_v75_apply]
  refine Finset.sum_congr rfl fun k _ => ?_
  have e1 : lidx_main_v75 (ValueIdx.ix2 p q) k = ValueIdx.ix2 p k := idx2_ext _ _ rfl rfl
  have e2 : ridx_main_v75 (ValueIdx.ix2 p q) k = ValueIdx.ix2 k q := idx2_ext _ _ rfl rfl
  rw [e1, e2, v69_at x0 x1 x2 x3 x4 x5 x6 x7 x8 x9]
  rfl

/-- The output gate. -/
theorem v82_at (p : Fin 16384) (q : Fin 1024) :
    val_main_v82 (F := Ideal) x0 x1 x2 x3 x4 x5 x6 x7 x8 x9 (ValueIdx.ix2 p q) = gateO (weightsOf x4 x5 x6 x7 x8 x9) (rowOf x0 x1 x2 x3 p) q := by
  rw [val_main_v82_apply, val_main_v81_apply, val_main_cst_12_apply, val_main_v80_apply, val_main_v79_apply,
    val_main_cst_11_apply, val_main_v78_apply, val_main_v77_apply, val_main_v76_apply, val_main_v74_apply,
    val_main_v73_apply, v9_at x0 x1 x2 x3 x4 x5 x6 x7 x8 x9, v21_at x0 x1 x2 x3 x4 x5 x6 x7 x8 x9, v14_at x0 x1 x2 x3 x4 x5 x6 x7 x8 x9, v75_at x0 x1 x2 x3 x4 x5 x6 x7 x8 x9]
  exact sig_eq _

end

/-! ## The two results -/

/-- The reference's first result is the next hidden state of every batch row. -/
theorem ref_hNext (x0 : (⟨S16384x512, .f32⟩ : BufTy).Contents (Elt Ideal)) (x1 x2 : (⟨S16384x1024, .f32⟩ : BufTy).Contents (Elt Ideal))
    (x3 : (⟨S16384x64, .f32⟩ : BufTy).Contents (Elt Ideal)) (x4 : (⟨S512x6144, .f32⟩ : BufTy).Contents (Elt Ideal))
    (x5 : (⟨S6144, .f32⟩ : BufTy).Contents (Elt Ideal)) (x6 : (⟨S1024x4096, .f32⟩ : BufTy).Contents (Elt Ideal))
    (x7 : (⟨S1024x2048, .f32⟩ : BufTy).Contents (Elt Ideal)) (x8 : (⟨S64x3072, .f32⟩ : BufTy).Contents (Elt Ideal))
    (x9 : (⟨S1024x1024, .f32⟩ : BufTy).Contents (Elt Ideal)) :
    Cert.ReferenceIdeal.Read.val_main_v84 (F := Ideal) x0 x1 x2 x3 x4 x5 x6 x7 x8 x9
      = Cert.TimeLstm.hNextArr x0 x1 x2 x3 (Cert.TimeLstm.weightsOf x4 x5 x6 x7 x8 x9) := by
  funext i
  obtain ⟨p, q, rfl⟩ : ∃ (p : Fin 16384) (q : Fin 1024), i = ValueIdx.ix2 p q := ⟨i 0, i 1, ValueIdx.eq_ix2 i⟩
  rw [hNextArr_apply, val_main_v84_apply, val_main_v83_apply, v82_at x0 x1 x2 x3 x4 x5 x6 x7 x8 x9, v69_at x0 x1 x2 x3 x4 x5 x6 x7 x8 x9]
  rfl

/-- The reference's second result is the next cell state of every batch row. -/
theorem ref_cNext (x0 : (⟨S16384x512, .f32⟩ : BufTy).Contents (Elt Ideal)) (x1 x2 : (⟨S16384x1024, .f32⟩ : BufTy).Contents (Elt Ideal))
    (x3 : (⟨S16384x64, .f32⟩ : BufTy).Contents (Elt Ideal)) (x4 : (⟨S512x6144, .f32⟩ : BufTy).Contents (Elt Ideal))
    (x5 : (⟨S6144, .f32⟩ : BufTy).Contents (Elt Ideal)) (x6 : (⟨S1024x4096, .f32⟩ : BufTy).Contents (Elt Ideal))
    (x7 : (⟨S1024x2048, .f32⟩ : BufTy).Contents (Elt Ideal)) (x8 : (⟨S64x3072, .f32⟩ : BufTy).Contents (Elt Ideal))
    (x9 : (⟨S1024x1024, .f32⟩ : BufTy).Contents (Elt Ideal)) :
    Cert.ReferenceIdeal.Read.val_main_v72 (F := Ideal) x0 x1 x2 x3 x4 x5 x6 x7 x8
      = Cert.TimeLstm.cNextArr x0 x1 x2 x3 (Cert.TimeLstm.weightsOf x4 x5 x6 x7 x8 x9) := by
  funext i
  obtain ⟨p, q, rfl⟩ : ∃ (p : Fin 16384) (q : Fin 1024), i = ValueIdx.ix2 p q := ⟨i 0, i 1, ValueIdx.eq_ix2 i⟩
  rw [cNextArr_apply, v72_at x0 x1 x2 x3 x4 x5 x6 x7 x8 x9]

end Cert.ReferenceIdeal.RefValue

end
-- ==== Proof.lean ====
/-
  The certificate: a time-gated LSTM cell, one launch over 64 blocks of 256 batch rows against the plain
  array program.

  Both idealized programs compute, for every batch row, the cell of Proof/Cell.lean. The reference does so
  literally (Proof/RefCell.lean, over its generated run). The kernel re-lays the weights on the host so that
  the operands feeding one pair of gates sit side by side (Proof/HostWeights.lean), contracts each batch
  row once per pair inside the launch (Proof/KernelCell.lean) and adds the paired biases afterwards; a sum over
  a concatenation is the sum of the sums over its pieces, and sums of extended reals commute and
  associate, so the fused cell is the cell (Proof/CellFusedLaws.lean). Narrowing to bf16 is the identity on
  extended reals, and the sigmoid is one function however it is spelt. The launch itself — every point
  terminates, the blocks tile the arrays, the arguments stay — is Proof/LaunchIdeal.lean (and
  Proof/LaunchBits.lean for the program as printed), and Proof/KernelValue.lean reads the result arrays off it.
-/
import proofs.«423095_j91027536871502_3_alg».proof.Defs
import proofs.«423095_j91027536871502_3_alg».proof.Proof.Gen.Kernel
import proofs.«423095_j91027536871502_3_alg».proof.Proof.Gen.KernelIdeal
import proofs.«423095_j91027536871502_3_alg».proof.Proof.Gen.ReferenceIdeal
import proofs.«423095_j91027536871502_3_alg».proof.Proof.Gen.Pre_finite_inputs
import proofs.«423095_j91027536871502_3_alg».proof.Proof.Gen.ReferenceIdeal.Run
import proofs.«423095_j91027536871502_3_alg».proof.Proof.Gen.ReferenceIdeal.Read
import proofs.«423095_j91027536871502_3_alg».proof.Proof.LaunchBits
import proofs.«423095_j91027536871502_3_alg».proof.Proof.KernelValue
import proofs.«423095_j91027536871502_3_alg».proof.Proof.RefCell
import Idealize.ShloMosaic.Adequacy
import Idealize.ShloMosaic.Init

noncomputable section

namespace Cert.Proof

open Idealize.ShloMosaic Idealize.ShloMosaic.TcCoe Idealize.SL.Sem

/-- The program as printed runs and leaves its arguments. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's run with its results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both idealized programs end with the cell of every batch row in their two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.hArr m c, fun c => Cert.KernelIdeal.Hand.cArr m c,
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v84_eq, Cert.ReferenceIdeal.RefValue.ref_hNext]
    obtain ⟨h0, h1, h2, h3, h4, h5, h6, h7, h8, h9⟩ := hagree c
    rw [h0, h1, h2, h3, h4, h5, h6, h7, h8, h9]
  · rw [Cert.ReferenceIdeal.Read.val_main_v72_eq,
      Cert.ReferenceIdeal.RefValue.ref_cNext _ _ _ _ _ _ _ _ _ (m' ((c.tc : Thread Cert.ReferenceIdeal.nD Cert.ReferenceIdeal.τ).loc Cert.ReferenceIdeal.main_arg9))]
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
